-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1024 : Shape := ⟨2, ![1024, 1024]⟩
abbrev S32768x1024 : Shape := ⟨2, ![32768, 1024]⟩
abbrev S1024 : Shape := ⟨1, ![1024]⟩
abbrev S1024x128 : Shape := ⟨2, ![1024, 128]⟩
abbrev S1024x256 : Shape := ⟨2, ![1024, 256]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S32768x1024 : S_.BroadcastsInDim S32768x1024 (![] : Fin 0 → Fin S32768x1024.rank)
  reducesTo_S32768x1024_S_d0_1 : S32768x1024.ReducesTo [0, 1] S_
  bcast_S_S1024 : S_.BroadcastsInDim S1024 (![] : Fin 0 → Fin S1024.rank)
  reducesTo_S1024_S_d0 : S1024.ReducesTo [0] S_
  bcast_S_S1024x128 : S_.BroadcastsInDim S1024x128 (![] : Fin 0 → Fin S1024x128.rank)
  reducesTo_S1024x128_S_d0_1 : S1024x128.ReducesTo [0, 1] S_
  bcast_S_S1024x256 : S_.BroadcastsInDim S1024x256 (![] : Fin 0 → Fin S1024x256.rank)
  reducesTo_S1024x256_S_d0_1 : S1024x256.ReducesTo [0, 1] S_

variable [Facts]

def fn_part4 {F : FTy → Type} [FloatOps F] (main_arg14 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  main_v73

def fn_part3 {F : FTy → Type} [FloatOps F] (main_arg11 : FVec F S1024 .f32) (main_arg12 : FVec F S1024 .f32) (main_arg13 : FVec F S1024 .f32) (main_arg14 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg14 main_v63 main_v67

def fn_part2 {F : FTy → Type} [FloatOps F] (main_arg7 : FVec F S1024x128 .f32) (main_arg8 : FVec F S1024x256 .f32) (main_arg9 : FVec F S1024x1024 .f32) (main_arg10 : FVec F S1024 .f32) (main_arg11 : FVec F S1024 .f32) (main_arg12 : FVec F S1024 .f32) (main_arg13 : FVec F S1024 .f32) (main_arg14 : FVec F S1024 .f32) (main_v33 : IVec S_ 1) : IVec S_ 1 :=
  let main_v34 : FVec F S1024x128 .f32 := Host.absf main_arg7
  let main_cst_12 : FVec F S_ .f32 := constant S_ .f32 0x7F800000#32
  let main_v35 : FVec F S1024x128 .f32 := broadcastInDim S1024x128 ![] bcast_S_S1024x128 main_cst_12
  let main_v36 : IVec S1024x128 1 := cmpf .olt main_v34 main_v35
  let main_c_13 : IVec S_ 1 := constantI S_ 1 1#1
  let main_v37 : IVec S_ 1 := (fun x v => Host.reduce IntOp.andi x v reducesTo_S1024x128_S_d0_1 h_S_) main_v36 main_c_13
  let main_v38 : IVec S_ 1 := andi main_v33 main_v37
  let main_v39 : FVec F S1024x256 .f32 := Host.absf main_arg8
  let main_cst_14 : FVec F S_ .f32 := constant S_ .f32 0x7F800000#32
  let main_v40 : FVec F S1024x256 .f32 := broadcastInDim S1024x256 ![] bcast_S_S1024x256 main_cst_14
  let main_v41 : IVec S1024x256 1 := cmpf .olt main_v39 main_v40
  let main_c_15 : IVec S_ 1 := constantI S_ 1 1#1
  let main_v42 : IVec S_ 1 := (fun x v => Host.reduce IntOp.andi x v reducesTo_S1024x256_S_d0_1 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_v48 main_v49 main_v50

def fn_part1 {F : FTy → Type} [FloatOps F] (main_arg4 : FVec F S1024x1024 .f32) (main_arg5 : FVec F S1024 .f32) (main_arg6 : FVec F S1024x1024 .f32) (main_arg7 : FVec F S1024x128 .f32) (main_arg8 : FVec F S1024x256 .f32) (main_arg9 : FVec F S1024x1024 .f32) (main_arg10 : FVec F S1024 .f32) (main_arg11 : FVec F S1024 .f32) (main_arg12 : FVec F S1024 .f32) (main_arg13 : FVec F S1024 .f32) (main_arg14 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S1024x1024 .f32) (main_arg1 : FVec F S32768x1024 .f32) (main_arg2 : FVec F S1024x1024 .f32) (main_arg3 : FVec F S1024 .f32) (main_arg4 : FVec F S1024x1024 .f32) (main_arg5 : FVec F S1024 .f32) (main_arg6 : FVec F S1024x1024 .f32) (main_arg7 : FVec F S1024x128 .f32) (main_arg8 : FVec F S1024x256 .f32) (main_arg9 : FVec F S1024x1024 .f32) (main_arg10 : FVec F S1024 .f32) (main_arg11 : FVec F S1024 .f32) (main_arg12 : FVec F S1024 .f32) (main_arg13 : FVec F S1024 .f32) (main_arg14 : FVec F S1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S32768x1024 .f32 := Host.absf main_arg1
  let main_cst_0 : FVec F S_ .f32 := constant S_ .f32 0x7F800000#32
  let main_v5 : FVec F S32768x1024 .f32 := broadcastInDim S32768x1024 ![] bcast_S_S32768x1024 main_cst_0
  let main_v6 : IVec S32768x1024 1 := cmpf .olt main_v4 main_v5
  let main_c_1 : IVec S_ 1 := constantI S_ 1 1#1
  let main_v7 : IVec S_ 1 := (fun x v => Host.reduce IntOp.andi x v reducesTo_S32768x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S1024x1024 : Shape := ⟨2, ![1024, 1024]⟩
abbrev S32768x1024 : Shape := ⟨2, ![32768, 1024]⟩
abbrev S1024 : Shape := ⟨1, ![1024]⟩
abbrev S1024x128 : Shape := ⟨2, ![1024, 128]⟩
abbrev S1024x256 : Shape := ⟨2, ![1024, 256]⟩
abbrev S1x1024 : Shape := ⟨2, ![1, 1024]⟩
abbrev S256x128 : Shape := ⟨2, ![256, 128]⟩
abbrev S1024x1 : Shape := ⟨2, ![1024, 1]⟩
abbrev S128x1024 : Shape := ⟨2, ![128, 1024]⟩

abbrev nBuf : Space → Nat
  | .hbm => 24
  | .vmem => 19
  | .smem => 0
  | _ => 0

abbrev bufTy : (tb : Table) → Fin (tcTables nBuf tb) → BufTy
  | .hbm, ⟨0, _⟩ => ⟨S1024x1024, .f32⟩
  | .hbm, ⟨1, _⟩ => ⟨S32768x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024x128, .f32⟩
  | .hbm, ⟨8, _⟩ => ⟨S1024x256, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1024x1024, .f32⟩
  | .hbm, ⟨23, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x128, .f32⟩
  | .local _ .vmem, ⟨5, _⟩ => ⟨S1024x256, .f32⟩
  | .local _ .vmem, ⟨6, _⟩ => ⟨S1024x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1024x1024, .f32⟩
  | .local _ .vmem, ⟨18, _⟩ => ⟨S1024x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1024x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  bitsLt_bf16_f32 : FTy.bits .bf16 < FTy.bits .f32
  broadcasts_S1x1024_S1024x1024 : S1x1024.Broadcasts S1024x1024
  inb_S1024x128_S1024x128_0_0 : ∀ a, (![0, 0] : Fin 2 → Nat) a + S1024x128.size a ≤ S1024x128.size a
  h_S1024x128 : 0 < S1024x128.numel
  inb_S1024x256_S1024x256_0_0 : ∀ a, (![0, 0] : Fin 2 → Nat) a + S1024x256.size a ≤ S1024x256.size a
  h_S1024x256 : 0 < S1024x256.numel
  slices_S1024x1024_o0_0_S1024x128 : S1024x1024.Slices ![0, 0] S1024x128
  reduces_S1024x256_S1024 : S1024x256.Reduces [1] S1024
  shapeCasts_S1024_S1024x1 : S1024.ShapeCasts S1024x1
  broadcasts_S1024x1_S1024x256 : S1024x1.Broadcasts S1024x256
  slices_S1024x1024_o0_0_S128x1024 : S1024x1024.Slices ![0, 0] S128x1024
  slices_S1024x1024_o0_128_S1024x128 : S1024x1024.Slices ![0, 128] S1024x128
  slices_S1024x1024_o128_0_S128x1024 : S1024x1024.Slices ![128, 0] S128x1024
  slices_S1024x1024_o0_256_S1024x128 : S1024x1024.Slices ![0, 256] S1024x128
  slices_S1024x1024_o256_0_S128x1024 : S1024x1024.Slices ![256, 0] S128x1024
  slices_S1024x1024_o0_384_S1024x128 : S1024x1024.Slices ![0, 384] S1024x128
  slices_S1024x1024_o384_0_S128x1024 : S1024x1024.Slices ![384, 0] S128x1024
  slices_S1024x1024_o0_512_S1024x128 : S1024x1024.Slices ![0, 512] S1024x128
  slices_S1024x1024_o512_0_S128x1024 : S1024x1024.Slices ![512, 0] S128x1024
  slices_S1024x1024_o0_640_S1024x128 : S1024x1024.Slices ![0, 640] S1024x128
  slices_S1024x1024_o640_0_S128x1024 : S1024x1024.Slices ![640, 0] S128x1024
  slices_S1024x1024_o0_768_S1024x128 : S1024x1024.Slices ![0, 768] S1024x128
  slices_S1024x1024_o768_0_S128x1024 : S1024x1024.Slices ![768, 0] S128x1024
  slices_S1024x1024_o0_896_S1024x128 : S1024x1024.Slices ![0, 896] S1024x128
  slices_S1024x1024_o896_0_S128x1024 : S1024x1024.Slices ![896, 0] S128x1024
  reduces_S1024x1024_S1024 : S1024x1024.Reduces [1] S1024
  broadcasts_S1024x1_S1024x1024 : S1024x1.Broadcasts S1024x1024
  dot_S1024x1024_S1024x1024_S1024x1024_1_0_0_1_n_n_wf : DotDims.WF S1024x1024 S1024x1024 S1024x1024 [1] [0] [0] [1] [] []
  dot_S1024x1024_S1024x128_S1024x128_1_0_0_1_n_n_wf : DotDims.WF S1024x1024 S1024x128 S1024x128 [1] [0] [0] [1] [] []
  dot_S1024x256_S1024x128_S256x128_0_0_1_1_n_n_wf : DotDims.WF S1024x256 S1024x128 S256x128 [0] [0] [1] [1] [] []
  dot_S1024x128_S256x128_S1024x256_1_1_0_0_n_n_wf : DotDims.WF S1024x128 S256x128 S1024x256 [1] [1] [0] [0] [] []
  dot_S1024x256_S256x128_S1024x128_1_0_0_1_n_n_wf : DotDims.WF S1024x256 S256x128 S1024x128 [1] [0] [0] [1] [] []
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S1024x1024.size a
  hwx0_0 : ∀ i : grid0.Coords, EltTy.bits .f32 = 32 ∨ (Rect.block (s := S1024x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S1024x128.size a
  hwx0_4 : ∀ i : grid0.Coords, EltTy.bits .f32 = 32 ∨ (Rect.block (s := S1024x128) S1024x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S1024x256.size a
  hwx0_5 : ∀ i : grid0.Coords, EltTy.bits .f32 = 32 ∨ (Rect.block (s := S1024x256) S1024x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .f32 = 32 ∨ (Rect.block (s := S1024x1024) S1024x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x1024.size a ≤ S1024x1024.size a
  hwx0_10 : ∀ i : grid0.Coords, EltTy.bits .f32 = 32 ∨ (Rect.block (s := S1024x1024) S1024x1024.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S32768x1024.size a
  hwx1_0 : ∀ i : grid1.Coords, EltTy.bits .f32 = 32 ∨ (Rect.block (s := S32768x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S32768x1024.size a
  hwx1_5 : ∀ i : grid1.Coords, EltTy.bits .f32 = 32 ∨ (Rect.block (s := S32768x1024) S1024x1024.size (cc1_transform_5 i) (hinb1_5 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x256_S1024x128_S256x128_0_0_1_1_n_n : DotDims S1024x256 S1024x128 S256x128 where
  lhsContracting := [0]
  rhsContracting := [0]
  lhsNonContracting := [1]
  rhsNonContracting := [1]
  lhsBatch := []
  rhsBatch := []
  wf := dot_S1024x256_S1024x128_S256x128_0_0_1_1_n_n_wf
def dot_S1024x128_S256x128_S1024x256_1_1_0_0_n_n : DotDims S1024x128 S256x128 S1024x256 where
  lhsContracting := [1]
  rhsContracting := [1]
  lhsNonContracting := [0]
  rhsNonContracting := [0]
  lhsBatch := []
  rhsBatch := []
  wf := dot_S1024x128_S256x128_S1024x256_1_1_0_0_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_arg0) S1024x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S1024x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S1024x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S1024x1024.size cc0_transform_10 reads0_10 true true 1 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_arg1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8) S1024x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S1024x1024 : Shape := ⟨2, ![1024, 1024]⟩
abbrev S32768x1024 : Shape := ⟨2, ![32768, 1024]⟩
abbrev S1024 : Shape := ⟨1, ![1024]⟩
abbrev S1024x128 : Shape := ⟨2, ![1024, 128]⟩
abbrev S1024x256 : Shape := ⟨2, ![1024, 256]⟩
abbrev S1x1024 : Shape := ⟨2, ![1, 1024]⟩
abbrev S256x128 : Shape := ⟨2, ![256, 128]⟩
abbrev S1024x8x128 : Shape := ⟨3, ![1024, 8, 128]⟩
abbrev S8x1024x128 : Shape := ⟨3, ![8, 1024, 128]⟩
abbrev S8x1024x256 : Shape := ⟨3, ![8, 1024, 256]⟩
abbrev S_ : Shape := ⟨0, ![]⟩
abbrev S8x1024 : Shape := ⟨2, ![8, 1024]⟩
abbrev S8x1024x1 : Shape := ⟨3, ![8, 1024, 1]⟩
abbrev S1024x1 : Shape := ⟨2, ![1024, 1]⟩
abbrev S32768 : Shape := ⟨1, ![32768]⟩
abbrev S32768x1 : Shape := ⟨2, ![32768, 1]⟩

abbrev nBuf : Space → Nat
  | .hbm => 113
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S32768x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024x128, .f32⟩
  | .hbm, ⟨8, _⟩ => ⟨S1024x256, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024x1024, .f32⟩
  | .hbm, ⟨16, _⟩ => ⟨S1x1024, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S1024x128, .f32⟩
  | .hbm, ⟨21, _⟩ => ⟨S256x128, .f32⟩
  | .hbm, ⟨22, _⟩ => ⟨S1024x8x128, .f32⟩
  | .hbm, ⟨23, _⟩ => ⟨S8x1024x128, .f32⟩
  | .hbm, ⟨24, _⟩ => ⟨S8x1024x256, .f32⟩
  | .hbm, ⟨25, _⟩ => ⟨S_, .f32⟩
  | .hbm, ⟨26, _⟩ => ⟨S8x1024x256, .f32⟩
  | .hbm, ⟨27, _⟩ => ⟨S8x1024x256, .f32⟩
  | .hbm, ⟨28, _⟩ => ⟨S_, .f32⟩
  | .hbm, ⟨29, _⟩ => ⟨S8x1024, .f32⟩
  | .hbm, ⟨30, _⟩ => ⟨S_, .f32⟩
  | .hbm, ⟨31, _⟩ => ⟨S8x1024, .f32⟩
  | .hbm, ⟨32, _⟩ => ⟨S8x1024, .f32⟩
  | .hbm, ⟨33, _⟩ => ⟨S8x1024x1, .f32⟩
  | .hbm, ⟨34, _⟩ => ⟨S8x1024x256, .f32⟩
  | .hbm, ⟨35, _⟩ => ⟨S8x1024x256, .f32⟩
  | .hbm, ⟨36, _⟩ => ⟨S8x1024x256, .f32⟩
  | .hbm, ⟨37, _⟩ => ⟨S_, .f32⟩
  | .hbm, ⟨38, _⟩ => ⟨S8x1024, .f32⟩
  | .hbm, ⟨39, _⟩ => ⟨S8x1024x1, .f32⟩
  | .hbm, ⟨40, _⟩ => ⟨S8x1024x256, .f32⟩
  | .hbm, ⟨41, _⟩ => ⟨S8x1024x256, .f32⟩
  | .hbm, ⟨42, _⟩ => ⟨S8x1024x128, .f32⟩
  | .hbm, ⟨43, _⟩ => ⟨S1024x8x128, .f32⟩
  | .hbm, ⟨44, _⟩ => ⟨S1024x1024, .f32⟩
  | .hbm, ⟨45, _⟩ => ⟨S1024x1024, .f32⟩
  | .hbm, ⟨46, _⟩ => ⟨S1x1024, .f32⟩
  | .hbm, ⟨47, _⟩ => ⟨S1024x1024, .f32⟩
  | .hbm, ⟨48, _⟩ => ⟨S1024x1024, .f32⟩
  | .hbm, ⟨49, _⟩ => ⟨S32768x1024, .f32⟩
  | .hbm, ⟨50, _⟩ => ⟨S1x1024, .f32⟩
  | .hbm, ⟨51, _⟩ => ⟨S32768x1024, .f32⟩
  | .hbm, ⟨52, _⟩ => ⟨S32768x1024, .f32⟩
  | .hbm, ⟨53, _⟩ => ⟨S_, .f32⟩
  | .hbm, ⟨54, _⟩ => ⟨S1024, .f32⟩
  | .hbm, ⟨55, _⟩ => ⟨S1024x1, .f32⟩
  | .hbm, ⟨56, _⟩ => ⟨S_, .f32⟩
  | .hbm, ⟨57, _⟩ => ⟨S1024x1, .f32⟩
  | .hbm, ⟨58, _⟩ => ⟨S1024x1, .f32⟩
  | .hbm, ⟨59, _⟩ => ⟨S1024x1024, .f32⟩
  | .hbm, ⟨60, _⟩ => ⟨S1024x1024, .f32⟩
  | .hbm, ⟨61, _⟩ => ⟨S1024x1024, .f32⟩
  | .hbm, ⟨62, _⟩ => ⟨S_, .f32⟩
  | .hbm, ⟨63, _⟩ => ⟨S1024, .f32⟩
  | .hbm, ⟨64, _⟩ => ⟨S1024x1, .f32⟩
  | .hbm, ⟨65, _⟩ => ⟨S_, .f32⟩
  | .hbm, ⟨66, _⟩ => ⟨S1024x1, .f32⟩
  | .hbm, ⟨67, _⟩ => ⟨S1024x1, .f32⟩
  | .hbm, ⟨68, _⟩ => ⟨S1024x1024, .f32⟩
  | .hbm, ⟨69, _⟩ => ⟨S1024x1024, .f32⟩
  | .hbm, ⟨70, _⟩ => ⟨S_, .f32⟩
  | .hbm, ⟨71, _⟩ => ⟨S1024x1, .f32⟩
  | .hbm, ⟨72, _⟩ => ⟨S1024x1, .f32⟩
  | .hbm, ⟨73, _⟩ => ⟨S1024x1, .f32⟩
  | .hbm, ⟨74, _⟩ => ⟨S1024x1024, .f32⟩
  | .hbm, ⟨75, _⟩ => ⟨S1024x1024, .f32⟩
  | .hbm, ⟨76, _⟩ => ⟨S1x1024, .f32⟩
  | .hbm, ⟨77, _⟩ => ⟨S1024x1024, .f32⟩
  | .hbm, ⟨78, _⟩ => ⟨S1024x1024, .f32⟩
  | .hbm, ⟨79, _⟩ => ⟨S1x1024, .f32⟩
  | .hbm, ⟨80, _⟩ => ⟨S1024x1024, .f32⟩
  | .hbm, ⟨81, _⟩ => ⟨S1024x1024, .f32⟩
  | .hbm, ⟨82, _⟩ => ⟨S1024x1024, .f32⟩
  | .hbm, ⟨83, _⟩ => ⟨S_, .f32⟩
  | .hbm, ⟨84, _⟩ => ⟨S32768, .f32⟩
  | .hbm, ⟨85, _⟩ => ⟨S32768x1, .f32⟩
  | .hbm, ⟨86, _⟩ => ⟨S_, .f32⟩
  | .hbm, ⟨87, _⟩ => ⟨S32768x1, .f32⟩
  | .hbm, ⟨88, _⟩ => ⟨S32768x1, .f32⟩
  | .hbm, ⟨89, _⟩ => ⟨S32768x1024, .f32⟩
  | .hbm, ⟨90, _⟩ => ⟨S32768x1024, .f32⟩
  | .hbm, ⟨91, _⟩ => ⟨S32768x1024, .f32⟩
  | .hbm, ⟨92, _⟩ => ⟨S_, .f32⟩
  | .hbm, ⟨93, _⟩ => ⟨S32768, .f32⟩
  | .hbm, ⟨94, _⟩ => ⟨S32768x1, .f32⟩
  | .hbm, ⟨95, _⟩ => ⟨S_, .f32⟩
  | .hbm, ⟨96, _⟩ => ⟨S32768x1, .f32⟩
  | .hbm, ⟨97, _⟩ => ⟨S32768x1, .f32⟩
  | .hbm, ⟨98, _⟩ => ⟨S32768x1024, .f32⟩
  | .hbm, ⟨99, _⟩ => ⟨S32768x1024, .f32⟩
  | .hbm, ⟨100, _⟩ => ⟨S_, .f32⟩
  | .hbm, ⟨101, _⟩ => ⟨S32768x1, .f32⟩
  | .hbm, ⟨102, _⟩ => ⟨S32768x1, .f32⟩
  | .hbm, ⟨103, _⟩ => ⟨S32768x1, .f32⟩
  | .hbm, ⟨104, _⟩ => ⟨S32768x1024, .f32⟩
  | .hbm, ⟨105, _⟩ => ⟨S32768x1024, .f32⟩
  | .hbm, ⟨106, _⟩ => ⟨S1x1024, .f32⟩
  | .hbm, ⟨107, _⟩ => ⟨S32768x1024, .f32⟩
  | .hbm, ⟨108, _⟩ => ⟨S32768x1024, .f32⟩
  | .hbm, ⟨109, _⟩ => ⟨S1x1024, .f32⟩
  | .hbm, ⟨110, _⟩ => ⟨S32768x1024, .f32⟩
  | .hbm, ⟨111, _⟩ => ⟨S32768x1024, .f32⟩
  | .hbm, ⟨112, _⟩ => ⟨S32768x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_cst_0 : Ref sig .tc := ⟨.hbm, 28, rfl⟩
abbrev main_v12 : Ref sig .tc := ⟨.hbm, 29, rfl⟩
abbrev main_cst_1 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_3 : Ref sig .tc := ⟨.hbm, 53, rfl⟩
abbrev main_v34 : Ref sig .tc := ⟨.hbm, 54, rfl⟩
abbrev main_v35 : Ref sig .tc := ⟨.hbm, 55, rfl⟩
abbrev main_cst_4 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_5 : Ref sig .tc := ⟨.hbm, 62, rfl⟩
abbrev main_v41 : Ref sig .tc := ⟨.hbm, 63, rfl⟩
abbrev main_v42 : Ref sig .tc := ⟨.hbm, 64, rfl⟩
abbrev main_cst_6 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_7 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_8 : Ref sig .tc := ⟨.hbm, 83, rfl⟩
abbrev main_v59 : Ref sig .tc := ⟨.hbm, 84, rfl⟩
abbrev main_v60 : Ref sig .tc := ⟨.hbm, 85, rfl⟩
abbrev main_cst_9 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_10 : Ref sig .tc := ⟨.hbm, 92, rfl⟩
abbrev main_v66 : Ref sig .tc := ⟨.hbm, 93, rfl⟩
abbrev main_v67 : Ref sig .tc := ⟨.hbm, 94, rfl⟩
abbrev main_cst_11 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_12 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S1024x1024_0_1 : S1x1024.BroadcastsInDim S1024x1024 (![0, 1] : Fin 2 → Fin S1024x1024.rank)
  shapeCasts_S1024x1024_S1024x8x128 : S1024x1024.ShapeCasts S1024x8x128
  transposes_S1024x8x128_S8x1024x128_1_0_2 : S1024x8x128.Transposes [1, 0, 2] S8x1024x128
  bcast_S_S8x1024x256 : S_.BroadcastsInDim S8x1024x256 (![] : Fin 0 → Fin S8x1024x256.rank)
  reducesTo_S8x1024x256_S8x1024_d2 : S8x1024x256.ReducesTo [2] S8x1024
  h_S_ : 0 < S_.numel
  bcast_S_S8x1024 : S_.BroadcastsInDim S8x1024 (![] : Fin 0 → Fin S8x1024.rank)
  bcast_S8x1024_S8x1024x1_0_1 : S8x1024.BroadcastsInDim S8x1024x1 (![0, 1] : Fin 2 → Fin S8x1024x1.rank)
  bcast_S8x1024x1_S8x1024x256_0_1_2 : S8x1024x1.BroadcastsInDim S8x1024x256 (![0, 1, 2] : Fin 3 → Fin S8x1024x256.rank)
  transposes_S8x1024x128_S1024x8x128_1_0_2 : S8x1024x128.Transposes [1, 0, 2] S1024x8x128
  shapeCasts_S1024x8x128_S1024x1024 : S1024x8x128.ShapeCasts S1024x1024
  bcast_S1x1024_S32768x1024_0_1 : S1x1024.BroadcastsInDim S32768x1024 (![0, 1] : Fin 2 → Fin S32768x1024.rank)
  reducesTo_S1024x1024_S1024_d1 : S1024x1024.ReducesTo [1] S1024
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x1024_0_1 : S1024x1.BroadcastsInDim S1024x1024 (![0, 1] : Fin 2 → Fin S1024x1024.rank)
  reducesTo_S32768x1024_S32768_d1 : S32768x1024.ReducesTo [1] S32768
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S32768x1_S32768x1024_0_1 : S32768x1.BroadcastsInDim S32768x1024 (![0, 1] : Fin 2 → Fin S32768x1024.rank)
  dot_S1024x1024_S1024x1024_S1024x1024_1_0_0_1_n_n_wf : DotDims.WF S1024x1024 S1024x1024 S1024x1024 [1] [0] [0] [1] [] []
  dot_S1024x1024_S1024x128_S1024x128_1_0_0_1_n_n_wf : DotDims.WF S1024x1024 S1024x128 S1024x128 [1] [0] [0] [1] [] []
  dot_S1024x256_S1024x128_S256x128_0_0_1_1_n_n_wf : DotDims.WF S1024x256 S1024x128 S256x128 [0] [0] [1] [1] [] []
  dot_S8x1024x128_S256x128_S8x1024x256_2_1_01_0_n_n_wf : DotDims.WF S8x1024x128 S256x128 S8x1024x256 [2] [1] [0, 1] [0] [] []
  dot_S8x1024x256_S256x128_S8x1024x128_2_0_01_1_n_n_wf : DotDims.WF S8x1024x256 S256x128 S8x1024x128 [2] [0] [0, 1] [1] [] []
  dot_S32768x1024_S1024x1024_S32768x1024_1_0_0_1_n_n_wf : DotDims.WF S32768x1024 S1024x1024 S32768x1024 [1] [0] [0] [1] [] []

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x256_S1024x128_S256x128_0_0_1_1_n_n : DotDims S1024x256 S1024x128 S256x128 where
  lhsContracting := [0]
  rhsContracting := [0]
  lhsNonContracting := [1]
  rhsNonContracting := [1]
  lhsBatch := []
  rhsBatch := []
  wf := dot_S1024x256_S1024x128_S256x128_0_0_1_1_n_n_wf
def dot_S8x1024x128_S256x128_S8x1024x256_2_1_01_0_n_n : DotDims S8x1024x128 S256x128 S8x1024x256 where
  lhsContracting := [2]
  rhsContracting := [1]
  lhsNonContracting := [0, 1]
  rhsNonContracting := [0]
  lhsBatch := []
  rhsBatch := []
  wf := dot_S8x1024x128_S256x128_S8x1024x256_2_1_01_0_n_n_wf
def dot_S8x1024x256_S256x128_S8x1024x128_2_0_01_1_n_n : DotDims S8x1024x256 S256x128 S8x1024x128 where
  lhsContracting := [2]
  rhsContracting := [0]
  lhsNonContracting := [0, 1]
  rhsNonContracting := [1]
  lhsBatch := []
  rhsBatch := []
  wf := dot_S8x1024x256_S256x128_S8x1024x128_2_0_01_1_n_n_wf
def dot_S32768x1024_S1024x1024_S32768x1024_1_0_0_1_n_n : DotDims S32768x1024 S1024x1024 S32768x1024 where
  lhsContracting := [1]
  rhsContracting := [0]
  lhsNonContracting := [0]
  rhsNonContracting := [1]
  lhsBatch := []
  rhsBatch := []
  wf := dot_S32768x1024_S1024x1024_S32768x1024_1_0_0_1_n_n_wf

class Facts : Prop extends Facts₀ where

variable [Facts]
-- ==== Proof.KStages.lean ====
/-
  The node and edge kernels' arithmetic as a few whole-array stages, each the body's own operations in the body's own order,
  and the equations that say the payloads the bodies store are these stages composed.

  The stages: a linear layer (a product into a zero accumulator plus the bias laid along every row); the three further
  products of the node path; one head's scaled scores; a row maximum from minus infinity; one head's contribution to the
  output projection from its scores and their row maxima (exponentials, their row sums, the quotient, the product with the
  keys, the product with the head's 128 rows of the output weights); the mean and the squared deviations of a row; the layer
  norm with gain, bias and residual. A head `h` reads columns `128·h …` of the queries and rows `128·h …` of the output weights.
-/
import proofs.«121415_j74371653697775_1_alg».proof.Proof.Gen.KernelIdeal.Skeleton
import Idealize.ShloMosaic.PureOps.Ideal

noncomputable section

namespace Cert.KernelIdeal.K

open Cert.KernelIdeal Cert.KernelIdeal.Gen
open Idealize.ShloMosaic Idealize.ShloMosaic.TcCoe

/-- `x · w + b`: the product into a zero accumulator, the one-row bias laid along every row. -/
def kLin (x w : Vec Ideal S1024x1024 .f32) (b : Vec Ideal S1x1024 .f32) : FVec Ideal S1024x1024 .f32 :=
  addf (matmul dot_S1024x1024_S1024x1024_S1024x1024_1_0_0_1_n_n none (truncf .bf16 x bitsLt_bf16_f32) (truncf .bf16 w bitsLt_bf16_f32) (constant S1024x1024 .f32 0x00000000#32))
    (broadcastTo S1024x1024 (shapeCast S1x1024 b shapeCasts_S1x1024_S1x1024) broadcasts_S1x1024_S1024x1024)

/-- `x · w` for two 1024 × 1024 matrices. -/
def kMMq (x : FVec Ideal S1024x1024 .f32) (w : Vec Ideal S1024x1024 .f32) : FVec Ideal S1024x1024 .f32 :=
  matmul dot_S1024x1024_S1024x1024_S1024x1024_1_0_0_1_n_n none (truncf .bf16 x bitsLt_bf16_f32) (truncf .bf16 w bitsLt_bf16_f32) (constant S1024x1024 .f32 0x00000000#32)

/-- `x · w` for a 1024 × 1024 and a 1024 × 128 matrix. -/
def kMMkv (x : FVec Ideal S1024x1024 .f32) (w : Vec Ideal S1024x128 .f32) : FVec Ideal S1024x128 .f32 :=
  matmul dot_S1024x1024_S1024x128_S1024x128_1_0_0_1_n_n none (truncf .bf16 x bitsLt_bf16_f32) (truncf .bf16 w bitsLt_bf16_f32) (constant S1024x128 .f32 0x00000000#32)

/-- `pkᵀ · kv`: both contracted along their 1024 rows. -/
def kKP (pk : Vec Ideal S1024x256 .f32) (kv : FVec Ideal S1024x128 .f32) : FVec Ideal S256x128 .bf16 :=
  truncf .bf16 (matmul dot_S1024x256_S1024x128_S256x128_0_0_1_1_n_n none (truncf .bf16 pk bitsLt_bf16_f32) (truncf .bf16 kv bitsLt_bf16_f32) (constant S256x128 .f32 0x00000000#32)) bitsLt_bf16_f32

/-- One head's scores `qh · kpᵀ` times the attention scale. -/
def kScores (qh : FVec Ideal S1024x128 .f32) (kp : FVec Ideal S256x128 .bf16) : FVec Ideal S1024x256 .f32 :=
  mulf (matmul dot_S1024x128_S256x128_S1024x256_1_1_0_0_n_n none (truncf .bf16 qh bitsLt_bf16_f32) kp (constant S1024x256 .f32 0x00000000#32))
    (broadcast S1024x256 (Scalar.ofBits .f32 0x3DB504F3#32))

/-- Each row's maximum from minus infinity, taken against minus infinity once more. -/
def kMax (s : FVec Ideal S1024x256 .f32) : FVec Ideal S1024 .f32 :=
  maximumf (broadcast S1024 (Scalar.ofBits .f32 0xFF800000#32))
    (multiReduction .maximumf [1] S1024 s 0xFF800000#32 reduces_S1024x256_S1024 (.inl rfl) rfl)

/-- The exponentials of the scores less their row's maximum `mx`. -/
def kExp (s : FVec Ideal S1024x256 .f32) (mx : FVec Ideal S1024 .f32) : FVec Ideal S1024x256 .f32 :=
  exp (subf s (broadcastTo S1024x256 (shapeCast S1024x1 mx shapeCasts_S1024_S1024x1) broadcasts_S1024x1_S1024x256))

/-- One head's contribution to the projection, from its scores `s` and their row maxima `mx`: the softmax, its product with
    the keys, and that product against the head's 128 rows `woh` of the output weights. -/
def kHeadOut (s : FVec Ideal S1024x256 .f32) (mx : FVec Ideal S1024 .f32) (kp : FVec Ideal S256x128 .bf16)
    (woh : FVec Ideal S128x1024 .f32) : FVec Ideal S1024x1024 .f32 :=
  matmul dot_S1024x128_S128x1024_S1024x1024_1_0_0_1_n_n none
    (truncf .bf16
      (matmul dot_S1024x256_S256x128_S1024x128_1_0_0_1_n_n none
        (truncf .bf16
          (divf (kExp s mx)
            (broadcastTo S1024x256 (shapeCast S1024x1 (multiReduction .add [1] S1024 (kExp s mx) 0x00000000#32 reduces_S1024x256_S1024 (.inl rfl) rfl) shapeCasts_S1024_S1024x1) broadcasts_S1024x1_S1024x256))
          bitsLt_bf16_f32)
        kp (constant S1024x128 .f32 0x00000000#32))
      bitsLt_bf16_f32)
    (truncf .bf16 woh bitsLt_bf16_f32) (constant S1024x1024 .f32 0x00000000#32)

/-- One head's contribution from its 128 query columns `qh`. -/
def kHead (qh : FVec Ideal S1024x128 .f32) (kp : FVec Ideal S256x128 .bf16) (woh : FVec Ideal S128x1024 .f32) :
    FVec Ideal S1024x1024 .f32 :=
  kHeadOut (kScores qh kp) (kMax (kScores qh kp)) kp woh

/-- Each row's mean over its 1024 entries, as a column. -/
def kMean (x : FVec Ideal S1024x1024 .f32) : FVec Ideal S1024x1 .f32 :=
  divf (shapeCast S1024x1 (multiReduction .add [1] S1024 x 0x00000000#32 reduces_S1024x1024_S1024 (.inl rfl) rfl) shapeCasts_S1024_S1024x1)
    (broadcast S1024x1 (Scalar.ofBits .f32 0x44800000#32))

/-- The squared deviations from the row means. -/
def kSqDev (x : FVec Ideal S1024x1024 .f32) : FVec Ideal S1024x1024 .f32 :=
  mulf (subf x (broadcastTo S1024x1024 (kMean x) broadcasts_S1024x1_S1024x1024)) (subf x (broadcastTo S1024x1024 (kMean x) broadcasts_S1024x1_S1024x1024))

/-- The layer norm's last part, from the matrix `x`, its row means `mu` and its squared deviations `sq`: the variance, the
    reciprocal root, gain, bias and the residual `r`. -/
def kLNof (r : Vec Ideal S1024x1024 .f32) (x : FVec Ideal S1024x1024 .f32) (mu : FVec Ideal S1024x1 .f32) (sq : FVec Ideal S1024x1024 .f32)
    (g b : Vec Ideal S1x1024 .f32) : FVec Ideal S1024x1024 .f32 :=
  addf
    (addf
      (mulf
        (mulf (subf x (broadcastTo S1024x1024 mu broadcasts_S1024x1_S1024x1024))
          (broadcastTo S1024x1024
            (rsqrt (addf
              (divf (shapeCast S1024x1 (multiReduction .add [1] S1024 sq 0x00000000#32 reduces_S1024x1024_S1024 (.inl rfl) rfl) shapeCasts_S1024_S1024x1)
                (broadcast S1024x1 (Scalar.ofBits .f32 0x44800000#32)))
              (broadcast S1024x1 (Scalar.ofBits .f32 0x3727C5AC#32))))
            broadcasts_S1024x1_S1024x1024))
        (broadcastTo S1024x1024 (shapeCast S1x1024 g shapeCasts_S1x1024_S1x1024) broadcasts_S1x1024_S1024x1024))
      (broadcastTo S1024x1024 (shapeCast S1x1024 b shapeCasts_S1x1024_S1x1024) broadcasts_S1x1024_S1024x1024))
    r

/-- The layer norm of `x` with gain `g`, bias `b` and residual `r`. -/
def kLN (x : FVec Ideal S1024x1024 .f32) (g b : Vec Ideal S1x1024 .f32) (r : Vec Ideal S1024x1024 .f32) : FVec Ideal S1024x1024 .f32 :=
  kLNof r x (kMean x) (kSqDev x) g b

/-! ## A head's columns of the queries and rows of the output weights -/

/-- Head 0's 128 columns of the queries. -/
def qCols0 (q : FVec Ideal S1024x1024 .f32) : FVec Ideal S1024x128 .f32 := extractStridedSlice S1024x128 ![0, 0] q slices_S1024x1024_o0_0_S1024x128
/-- Head 0's 128 rows of the output weights. -/
def woRows0 (wo : Vec Ideal S1024x1024 .f32) : FVec Ideal S128x1024 .f32 := extractStridedSlice S128x1024 ![0, 0] wo slices_S1024x1024_o0_0_S128x1024
/-- Head 1's 128 columns of the queries. -/
def qCols1 (q : FVec Ideal S1024x1024 .f32) : FVec Ideal S1024x128 .f32 := extractStridedSlice S1024x128 ![0, 128] q slices_S1024x1024_o0_128_S1024x128
/-- Head 1's 128 rows of the output weights. -/
def woRows1 (wo : Vec Ideal S1024x1024 .f32) : FVec Ideal S128x1024 .f32 := extractStridedSlice S128x1024 ![128, 0] wo slices_S1024x1024_o128_0_S128x1024
/-- Head 2's 128 columns of the queries. -/
def qCols2 (q : FVec Ideal S1024x1024 .f32) : FVec Ideal S1024x128 .f32 := extractStridedSlice S1024x128 ![0, 256] q slices_S1024x1024_o0_256_S1024x128
/-- Head 2's 128 rows of the output weights. -/
def woRows2 (wo : Vec Ideal S1024x1024 .f32) : FVec Ideal S128x1024 .f32 := extractStridedSlice S128x1024 ![256, 0] wo slices_S1024x1024_o256_0_S128x1024
/-- Head 3's 128 columns of the queries. -/
def qCols3 (q : FVec Ideal S1024x1024 .f32) : FVec Ideal S1024x128 .f32 := extractStridedSlice S1024x128 ![0, 384] q slices_S1024x1024_o0_384_S1024x128
/-- Head 3's 128 rows of the output weights. -/
def woRows3 (wo : Vec Ideal S1024x1024 .f32) : FVec Ideal S128x1024 .f32 := extractStridedSlice S128x1024 ![384, 0] wo slices_S1024x1024_o384_0_S128x1024
/-- Head 4's 128 columns of the queries. -/
def qCols4 (q : FVec Ideal S1024x1024 .f32) : FVec Ideal S1024x128 .f32 := extractStridedSlice S1024x128 ![0, 512] q slices_S1024x1024_o0_512_S1024x128
/-- Head 4's 128 rows of the output weights. -/
def woRows4 (wo : Vec Ideal S1024x1024 .f32) : FVec Ideal S128x1024 .f32 := extractStridedSlice S128x1024 ![512, 0] wo slices_S1024x1024_o512_0_S128x1024
/-- Head 5's 128 columns of the queries. -/
def qCols5 (q : FVec Ideal S1024x1024 .f32) : FVec Ideal S1024x128 .f32 := extractStridedSlice S1024x128 ![0, 640] q slices_S1024x1024_o0_640_S1024x128
/-- Head 5's 128 rows of the output weights. -/
def woRows5 (wo : Vec Ideal S1024x1024 .f32) : FVec Ideal S128x1024 .f32 := extractStridedSlice S128x1024 ![640, 0] wo slices_S1024x1024_o640_0_S128x1024
/-- Head 6's 128 columns of the queries. -/
def qCols6 (q : FVec Ideal S1024x1024 .f32) : FVec Ideal S1024x128 .f32 := extractStridedSlice S1024x128 ![0, 768] q slices_S1024x1024_o0_768_S1024x128
/-- Head 6's 128 rows of the output weights. -/
def woRows6 (wo : Vec Ideal S1024x1024 .f32) : FVec Ideal S128x1024 .f32 := extractStridedSlice S128x1024 ![768, 0] wo slices_S1024x1024_o768_0_S128x1024
/-- Head 7's 128 columns of the queries. -/
def qCols7 (q : FVec Ideal S1024x1024 .f32) : FVec Ideal S1024x128 .f32 := extractStridedSlice S1024x128 ![0, 896] q slices_S1024x1024_o0_896_S1024x128
/-- Head 7's 128 rows of the output weights. -/
def woRows7 (wo : Vec Ideal S1024x1024 .f32) : FVec Ideal S128x1024 .f32 := extractStridedSlice S128x1024 ![896, 0] wo slices_S1024x1024_o896_0_S128x1024

/-! ## The stored payloads are the stages composed -/

theorem pay2_eq (v0 v1 : Vec Ideal S1024x1024 .f32) (v2 : Vec Ideal S1x1024 .f32) : k0_pay2 v0 v1 v2 = kLin v0 v1 v2 := rfl
theorem pay3_eq (v0 v1 : Vec Ideal S1024x1024 .f32) (v2 : Vec Ideal S1x1024 .f32) (v9 : Vec Ideal S1024x1024 .f32) :
    k0_pay3 v0 v1 v2 v9 = kMMq (kLin v0 v1 v2) v9 := rfl
theorem pay4_eq (v0 v1 : Vec Ideal S1024x1024 .f32) (v2 : Vec Ideal S1x1024 .f32) (v13 : Vec Ideal S1024x128 .f32) (v17 : Vec Ideal S1024x256 .f32) :
    k0_pay4 v0 v1 v2 v13 v17 = kKP v17 (kMMkv (kLin v0 v1 v2) v13) := rfl
theorem pay7_eq (v0 v1 : Vec Ideal S1024x1024 .f32) (v2 : Vec Ideal S1x1024 .f32) (v9 : Vec Ideal S1024x1024 .f32) (v13 : Vec Ideal S1024x128 .f32) (v17 : Vec Ideal S1024x256 .f32) :
    k0_pay7 v0 v1 v2 v9 v13 v17 = kScores (qCols0 (k0_pay3 v0 v1 v2 v9)) (k0_pay4 v0 v1 v2 v13 v17) := rfl
theorem pay8_eq (v0 v1 : Vec Ideal S1024x1024 .f32) (v2 : Vec Ideal S1x1024 .f32) (v9 : Vec Ideal S1024x1024 .f32) (v13 : Vec Ideal S1024x128 .f32) (v17 : Vec Ideal S1024x256 .f32) :
    k0_pay8 v0 v1 v2 v9 v13 v17 = kMax (k0_pay7 v0 v1 v2 v9 v13 v17) := rfl
theorem pay9_eq (v12 : FVec Ideal S1024x1024 .f32) (v21 : FVec Ideal S256x128 .bf16) (v22 : Vec Ideal S1024x1024 .f32) (v25 : FVec Ideal S1024x1024 .f32) (v30 : FVec Ideal S1024x256 .f32) (v33 : FVec Ideal S1024 .f32) :
    k0_pay9 v12 v21 v22 v25 v30 v33 = addf (addf v25 (kHeadOut v30 v33 v21 (woRows0 v22))) (kHead (qCols1 v12) v21 (woRows1 v22)) := rfl
theorem pay10_eq (v12 : FVec Ideal S1024x1024 .f32) (v21 : FVec Ideal S256x128 .bf16) : k0_pay10 v12 v21 = kScores (qCols2 v12) v21 := rfl
theorem pay11_eq (v12 : FVec Ideal S1024x1024 .f32) (v21 : FVec Ideal S256x128 .bf16) : k0_pay11 v12 v21 = kMax (k0_pay10 v12 v21) := rfl
theorem pay12_eq (v12 : FVec Ideal S1024x1024 .f32) (v21 : FVec Ideal S256x128 .bf16) (v22 : Vec Ideal S1024x1024 .f32) (v71 : FVec Ideal S1024x1024 .f32) (v76 : FVec Ideal S1024x256 .f32) (v79 : FVec Ideal S1024 .f32) :
    k0_pay12 v12 v21 v22 v71 v76 v79 = addf (addf v71 (kHeadOut v76 v79 v21 (woRows2 v22))) (kHead (qCols3 v12) v21 (woRows3 v22)) := rfl
theorem pay13_eq (v12 : FVec Ideal S1024x1024 .f32) (v21 : FVec Ideal S256x128 .bf16) : k0_pay13 v12 v21 = kScores (qCols4 v12) v21 := rfl
theorem pay14_eq (v12 : FVec Ideal S1024x1024 .f32) (v21 : FVec Ideal S256x128 .bf16) : k0_pay14 v12 v21 = kMax (k0_pay13 v12 v21) := rfl
theorem pay15_eq (v12 : FVec Ideal S1024x1024 .f32) (v21 : FVec Ideal S256x128 .bf16) (v22 : Vec Ideal S1024x1024 .f32) (v117 : FVec Ideal S1024x1024 .f32) (v122 : FVec Ideal S1024x256 .f32) (v125 : FVec Ideal S1024 .f32) :
    k0_pay15 v12 v21 v22 v117 v122 v125 = addf (addf v117 (kHeadOut v122 v125 v21 (woRows4 v22))) (kHead (qCols5 v12) v21 (woRows5 v22)) := rfl
theorem pay16_eq (v12 : FVec Ideal S1024x1024 .f32) (v21 : FVec Ideal S256x128 .bf16) : k0_pay16 v12 v21 = kScores (qCols6 v12) v21 := rfl
theorem pay17_eq (v12 : FVec Ideal S1024x1024 .f32) (v21 : FVec Ideal S256x128 .bf16) : k0_pay17 v12 v21 = kMax (k0_pay16 v12 v21) := rfl
theorem pay18_eq (v12 : FVec Ideal S1024x1024 .f32) (v21 : FVec Ideal S256x128 .bf16) (v22 : Vec Ideal S1024x1024 .f32) (v24 : FVec Ideal S1x1024 .f32) (v163 : FVec Ideal S1024x1024 .f32) (v168 : FVec Ideal S1024x256 .f32) (v171 : FVec Ideal S1024 .f32) :
    k0_pay18 v12 v21 v22 v24 v163 v168 v171
      = addf (addf (addf v163 (kHeadOut v168 v171 v21 (woRows6 v22))) (kHead (qCols7 v12) v21 (woRows7 v22))) (broadcastTo S1024x1024 v24 broadcasts_S1x1024_S1024x1024) := rfl
theorem pay19_eq (v12 : FVec Ideal S1024x1024 .f32) (v21 : FVec Ideal S256x128 .bf16) (v22 : Vec Ideal S1024x1024 .f32) (v24 : FVec Ideal S1x1024 .f32) (v163 : FVec Ideal S1024x1024 .f32) (v168 : FVec Ideal S1024x256 .f32) (v171 : FVec Ideal S1024 .f32) :
    k0_pay19 v12 v21 v22 v24 v163 v168 v171 = kMean (k0_pay18 v12 v21 v22 v24 v163 v168 v171) := rfl
theorem pay20_eq (v12 : FVec Ideal S1024x1024 .f32) (v21 : FVec Ideal S256x128 .bf16) (v22 : Vec Ideal S1024x1024 .f32) (v24 : FVec Ideal S1x1024 .f32) (v163 : FVec Ideal S1024x1024 .f32) (v168 : FVec Ideal S1024x256 .f32) (v171 : FVec Ideal S1024 .f32) :
    k0_pay20 v12 v21 v22 v24 v163 v168 v171 = kSqDev (k0_pay18 v12 v21 v22 v24 v163 v168 v171) := rfl
theorem pay1_eq (v0 : Vec Ideal S1024x1024 .f32) (v211 : FVec Ideal S1024x1024 .f32) (v215 : FVec Ideal S1024x1 .f32) (v218 : FVec Ideal S1024x1024 .f32) (v223 v225 : Vec Ideal S1x1024 .f32) :
    k0_pay1 v0 v211 v215 v218 v223 v225 = kLNof v0 v211 v215 v218 v223 v225 := rfl
theorem edge_pay_eq (v0 v1 : Vec Ideal S1024x1024 .f32) (v2 v20 v22 : Vec Ideal S1x1024 .f32) :
    k1_pay1 v0 v1 v2 v20 v22 = kLN (kLin v0 v1 v2) v20 v22 v0 := rfl

end Cert.KernelIdeal.K

end
-- ==== Proof.Spec.lean ====
/-
  What both programs compute, index by index, with a matrix written as a function of two `Fin` coordinates and every
  entry an extended real.

  The node path: a linear layer `xq = nf · wq + bq`; three products `q = xq · wtq`, `kv = xq · wtk` and the low-rank
  keys `kp = pkᵀ · kv`; for each of eight heads the 128 columns `h·128 … h·128+127` of `q` against `kp`, scaled, a softmax
  along the 256 keys, the softmax against `kp` again; the eight heads' 128 columns each against the matching 128 rows of
  `wo`, summed, plus `bo`; a layer norm along the 1024 columns with gain and bias; the residual `nf`.
  The edge path: a linear layer, the same layer norm, the residual.

  Two laws regroup the projection's sum: a sum over 1024 indices is the sum over eight heads of the sum over the head's 128
  indices, and eight terms added one after the other onto zero are their sum. Both are laws of a commutative monoid, so they
  hold at the infinities too.
-/
import Idealize.ShloMosaic.PureOps.Ideal
import Mathlib.Algebra.BigOperators.Fin
import Mathlib.Algebra.BigOperators.Group.Finset.Sigma

noncomputable section

namespace Cert.Spec

open Idealize.ShloMosaic
open scoped BigOperators

/-- A matrix of extended reals, by row and column. -/
abbrev Mat (a b : ℕ) : Type := Fin a → Fin b → EReal
/-- A vector of extended reals. -/
abbrev Row (a : ℕ) : Type := Fin a → EReal

/-- The attention scale, the single-precision value nearest `128^(-1/2)`; both programs multiply by this same word. -/
abbrev cScale : EReal := Ideal.ofBits .f32 0x3DB504F3#32
/-- Minus infinity, the value a row maximum starts from. -/
abbrev cNegInf : EReal := Ideal.ofBits .f32 0xFF800000#32
/-- The layer norm's epsilon, the same word in both programs. -/
abbrev cEps : EReal := Ideal.ofBits .f32 0x3727C5AC#32
/-- The row length 1024 a mean divides by. -/
abbrev cN : EReal := Ideal.ofBits .f32 0x44800000#32

variable {n k m d : ℕ}

/-- `X · W`. -/
def mm (X : Mat n k) (W : Mat k m) : Mat n m := fun i j => ∑ t, X i t * W t j
/-- `X · W + b`, the bias along every row. -/
def lin (X : Mat n k) (W : Mat k m) (b : Row m) : Mat n m := fun i j => (∑ t, X i t * W t j) + b j
/-- `Pᵀ · Y`: both operands contracted along their rows. -/
def mmTl (P : Mat n k) (Y : Mat n d) : Mat k d := fun a b => ∑ t, P t a * Y t b
/-- `Q · Kᵀ`: both operands contracted along their columns. -/
def mmTr (Q : Mat n d) (K : Mat k d) : Mat n k := fun i a => ∑ t, Q i t * K a t
/-- Every entry times the attention scale. -/
def scaled (Z : Mat n k) : Mat n k := fun i a => Z i a * cScale
/-- A row's maximum, from minus infinity (taken against minus infinity once more, as both programs do). -/
def rowMax (S : Mat n k) : Row n := fun i => max cNegInf ((Finset.univ : Finset (Fin k)).fold max cNegInf (S i))
/-- The exponential of each entry less its row's maximum. -/
def expo (S : Mat n k) : Mat n k := fun i a => Ideal.exp (S i a - rowMax S i)
/-- The softmax along each row. -/
def softmax (S : Mat n k) : Mat n k := fun i a => Ideal.div (expo S i a) (∑ b, expo S i b)

/-- Column (or row) `h·128 + d` of the 1024: entry `d` of head `h`. -/
def hcol (h : Fin 8) (d : Fin 128) : Fin 1024 := ⟨h.val * 128 + d.val, by have := h.isLt; have := d.isLt; omega⟩
/-- Head `h`'s 128 columns of `Q`. -/
def headOf (Q : Mat 1024 1024) (h : Fin 8) : Mat 1024 128 := fun i dd => Q i (hcol h dd)
/-- Head `h`'s attention output: the softmax of its scaled scores against the keys, times the keys. -/
def attnHead (Q : Mat 1024 1024) (KP : Mat 256 128) (h : Fin 8) : Mat 1024 128 :=
  mm (softmax (scaled (mmTr (headOf Q h) KP))) KP
/-- The heads' outputs against the matching rows of `WO`, summed over heads, plus the bias. -/
def attnProj (Q : Mat 1024 1024) (KP : Mat 256 128) (WO : Mat 1024 1024) (bo : Row 1024) : Mat 1024 1024 :=
  fun i j => (∑ h : Fin 8, ∑ dd : Fin 128, attnHead Q KP h i dd * WO (hcol h dd) j) + bo j

/-- A row's mean over its 1024 entries. -/
def mean (X : Mat n 1024) : Row n := fun i => Ideal.div (∑ t, X i t) cN
/-- A row's variance: the mean of the squared deviations. -/
def var (X : Mat n 1024) : Row n := fun i => Ideal.div (∑ t, (X i t - mean X i) * (X i t - mean X i)) cN
/-- The layer norm along each row with gain `g` and bias `b`, plus the residual `R`. -/
def layernorm (X : Mat n 1024) (g b : Row 1024) (R : Mat n 1024) : Mat n 1024 := fun i j =>
  (X i j - mean X i) * Ideal.rsqrt (var X i + cEps) * g j + b j + R i j

/-- The node path. -/
def node (nf wq : Mat 1024 1024) (bq : Row 1024) (wtq : Mat 1024 1024) (wtk : Mat 1024 128) (pk : Mat 1024 256)
    (wo : Mat 1024 1024) (bo gn bn : Row 1024) : Mat 1024 1024 :=
  layernorm (attnProj (mm (lin nf wq bq) wtq) (mmTl pk (mm (lin nf wq bq) wtk)) wo bo) gn bn nf

/-- The edge path, over any number of rows. -/
def edge (ef : Mat n 1024) (w : Mat 1024 1024) (b g be : Row 1024) : Mat n 1024 :=
  layernorm (lin ef w b) g be ef

/-! ## The two regroupings of the projection's sum -/

/-- The 1024 indices as eight heads of 128. -/
def headEquiv : Fin 8 × Fin 128 ≃ Fin 1024 where
  toFun p := hcol p.1 p.2
  invFun kk := (⟨kk.val / 128, by have := kk.isLt; omega⟩, ⟨kk.val % 128, Nat.mod_lt _ (by norm_num)⟩)
  left_inv p := by
    obtain ⟨h, dd⟩ := p
    have := h.isLt; have := dd.isLt
    refine Prod.ext (Fin.ext ?_) (Fin.ext ?_)
    · show (h.val * 128 + dd.val) / 128 = h.val; omega
    · show (h.val * 128 + dd.val) % 128 = dd.val; omega
  right_inv kk := Fin.ext (by show kk.val / 128 * 128 + kk.val % 128 = kk.val; omega)

/-- A sum over the 1024 indices is the sum over the heads of the sum over each head's 128. -/
theorem sum_heads (f : Fin 1024 → EReal) : ∑ kk, f kk = ∑ h : Fin 8, ∑ dd : Fin 128, f (hcol h dd) := by
  rw [← Equiv.sum_comp headEquiv f, Fintype.sum_prod_type]
  rfl

/-- Eight terms added one after the other onto zero are their sum. -/
theorem sum_eight_from_zero (D : Fin 8 → EReal) :
    (0 : EReal) + D 0 + D 1 + D 2 + D 3 + D 4 + D 5 + D 6 + D 7 = ∑ h : Fin 8, D h := by
  rw [Fin.sum_univ_eight, zero_add]

end Cert.Spec

end
-- ==== Proof.KLinear.lean ====
/-
  The node path's four matrix products and the linear layer read at an index: each entry is the sum over the contracted
  coordinate of the products of the operands' entries (a change of float format is the identity on extended reals, and a
  product accumulated into zero is the product), the bias read along its one row. And a head's 128 query columns and 128
  output-weight rows read at an index: the same entries of the whole matrix, 128·h further along.
-/
import proofs.«121415_j74371653697775_1_alg».proof.Proof.KStages
import proofs.«121415_j74371653697775_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.K

open Cert.KernelIdeal Cert.Spec
open Idealize.ShloMosaic Idealize.ShloMosaic.TcCoe Idealize.ShloMosaic.ValueIdx
open scoped BigOperators

/-! ## The three contractions read at an index -/

private theorem lhsA_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
private theorem lhsA_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
private theorem rhsA_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
private theorem rhsA_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- An entry of the product: the sum over the contracted coordinate of the left operand's row against the right operand's
    column. The contraction's index set has one axis of 1024, so the sum is re-indexed over `Fin 1024`. -/
private theorem mmA_apply {φ₁ φ₂ : FTy} (l : FVec Ideal S1024x1024 φ₁) (r : FVec Ideal S1024x1024 φ₂) (i : Fin 1024) (j : Fin 1024) :
    matmul dot_S1024x1024_S1024x1024_S1024x1024_1_0_0_1_n_n none l r (constant S1024x1024 .f32 0x00000000#32) (ix2 i j)
      = ∑ k : Fin 1024, l (ix2 i k) * r (ix2 k j) := by
  refine (Ideal.matmul_constant_zero_apply dot_S1024x1024_S1024x1024_S1024x1024_1_0_0_1_n_n none l r (ix2 i j)).trans ?_
  rw [← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 i j) ((ValueIdx.contrEquiv1 dot_S1024x1024_S1024x1024_S1024x1024_1_0_0_1_n_n 1024 rfl rfl).symm k) = ix2 i k := funext fun a => Fin.ext (by
    match a with
    | ⟨0, _⟩ => exact lhsA_0 _ _
    | ⟨1, _⟩ => exact (lhsA_1 _ _).trans hk)
  have er : dot_S1024x1024_S1024x1024_S1024x1024_1_0_0_1_n_n.rhsIdx (ix2 i j) ((ValueIdx.contrEquiv1 dot_S1024x1024_S1024x1024_S1024x1024_1_0_0_1_n_n 1024 rfl rfl).symm k) = ix2 k j := funext fun a => Fin.ext (by
    match a with
    | ⟨0, _⟩ => exact (rhsA_0 _ _).trans hk
    | ⟨1, _⟩ => exact rhsA_1 _ _)
  rw [el, er]

private theorem lhsB_0 (i : S1024x128.Idx) (q : dot_S1024x1024_S1024x128_S1024x128_1_0_0_1_n_n.contr.Idx) :
    (dot_S1024x1024_S1024x128_S1024x128_1_0_0_1_n_n.lhsIdx i q 0).val = (i 0).val := by
  unfold DotDims.lhsIdx
  rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
  rfl
private theorem lhsB_1 (i : S1024x128.Idx) (q : dot_S1024x1024_S1024x128_S1024x128_1_0_0_1_n_n.contr.Idx) :
    (dot_S1024x1024_S1024x128_S1024x128_1_0_0_1_n_n.lhsIdx i q 1).val = (q ⟨0, by decide⟩).val :=
  dot_S1024x1024_S1024x128_S1024x128_1_0_0_1_n_n.lhsIdx_val_of_single rfl i q
private theorem rhsB_0 (i : S1024x128.Idx) (q : dot_S1024x1024_S1024x128_S1024x128_1_0_0_1_n_n.contr.Idx) :
    (dot_S1024x1024_S1024x128_S1024x128_1_0_0_1_n_n.rhsIdx i q 0).val = (q ⟨0, by decide⟩).val :=
  dot_S1024x1024_S1024x128_S1024x128_1_0_0_1_n_n.rhsIdx_val_of_single rfl i q
private theorem rhsB_1 (i : S1024x128.Idx) (q : dot_S1024x1024_S1024x128_S1024x128_1_0_0_1_n_n.contr.Idx) :
    (dot_S1024x1024_S1024x128_S1024x128_1_0_0_1_n_n.rhsIdx i q 1).val = (i 1).val := by
  unfold DotDims.rhsIdx
  rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
  rfl

/-- An entry of the product: the sum over the contracted coordinate of the left operand's row against the right operand's
    column. The contraction's index set has one axis of 1024, so the sum is re-indexed over `Fin 1024`. -/
private theorem mmB_apply {φ₁ φ₂ : FTy} (l : FVec Ideal S1024x1024 φ₁) (r : FVec Ideal S1024x128 φ₂) (i : Fin 1024) (j : Fin 128) :
    matmul dot_S1024x1024_S1024x128_S1024x128_1_0_0_1_n_n none l r (constant S1024x128 .f32 0x00000000#32) (ix2 i j)
      = ∑ k : Fin 1024, l (ix2 i k) * r (ix2 k j) := by
  refine (Ideal.matmul_constant_zero_apply dot_S1024x1024_S1024x128_S1024x128_1_0_0_1_n_n none l r (ix2 i j)).trans ?_
  rw [← Equiv.sum_comp (ValueIdx.contrEquiv1 dot_S1024x1024_S1024x128_S1024x128_1_0_0_1_n_n 1024 rfl rfl).symm]
  refine Finset.sum_congr rfl fun k _ => ?_
  have hk := ValueIdx.contrEquiv1_symm_val dot_S1024x1024_S1024x128_S1024x128_1_0_0_1_n_n 1024 rfl rfl k
  have el : dot_S1024x1024_S1024x128_S1024x128_1_0_0_1_n_n.lhsIdx (ix2 i j) ((ValueIdx.contrEquiv1 dot_S1024x1024_S1024x128_S1024x128_1_0_0_1_n_n 1024 rfl rfl).symm k) = ix2 i k := funext fun a => Fin.ext (by
    match a with
    | ⟨0, _⟩ => exact lhsB_0 _ _
    | ⟨1, _⟩ => exact (lhsB_1 _ _).trans hk)
  have er : dot_S1024x1024_S1024x128_S1024x128_1_0_0_1_n_n.rhsIdx (ix2 i j) ((ValueIdx.contrEquiv1 dot_S1024x1024_S1024x128_S1024x128_1_0_0_1_n_n 1024 rfl rfl).symm k) = ix2 k j := funext fun a => Fin.ext (by
    match a with
    | ⟨0, _⟩ => exact (rhsB_0 _ _).trans hk
    | ⟨1, _⟩ => exact rhsB_1 _ _)
  rw [el, er]

private theorem lhsC_0 (i : S256x128.Idx) (q : dot_S1024x256_S1024x128_S256x128_0_0_1_1_n_n.contr.Idx) :
    (dot_S1024x256_S1024x128_S256x128_0_0_1_1_n_n.lhsIdx i q 0).val = (q ⟨0, by decide⟩).val :=
  dot_S1024x256_S1024x128_S256x128_0_0_1_1_n_n.lhsIdx_val_of_single rfl i q
private theorem lhsC_1 (i : S256x128.Idx) (q : dot_S1024x256_S1024x128_S256x128_0_0_1_1_n_n.contr.Idx) :
    (dot_S1024x256_S1024x128_S256x128_0_0_1_1_n_n.lhsIdx i q 1).val = (i 0).val := by
  unfold DotDims.lhsIdx
  rw [dif_neg (show ¬(1 : Fin S1024x256.rank) ∈ dot_S1024x256_S1024x128_S256x128_0_0_1_1_n_n.lhsBatch by decide), dif_pos (show (1 : Fin S1024x256.rank) ∈ dot_S1024x256_S1024x128_S256x128_0_0_1_1_n_n.lhsNonContracting by decide)]
  rfl
private theorem rhsC_0 (i : S256x128.Idx) (q : dot_S1024x256_S1024x128_S256x128_0_0_1_1_n_n.contr.Idx) :
    (dot_S1024x256_S1024x128_S256x128_0_0_1_1_n_n.rhsIdx i q 0).val = (q ⟨0, by decide⟩).val :=
  dot_S1024x256_S1024x128_S256x128_0_0_1_1_n_n.rhsIdx_val_of_single rfl i q
private theorem rhsC_1 (i : S256x128.Idx) (q : dot_S1024x256_S1024x128_S256x128_0_0_1_1_n_n.contr.Idx) :
    (dot_S1024x256_S1024x128_S256x128_0_0_1_1_n_n.rhsIdx i q 1).val = (i 1).val := by
  unfold DotDims.rhsIdx
  rw [dif_neg (show ¬(1 : Fin S1024x128.rank) ∈ dot_S1024x256_S1024x128_S256x128_0_0_1_1_n_n.rhsBatch by decide), dif_pos (show (1 : Fin S1024x128.rank) ∈ dot_S1024x256_S1024x128_S256x128_0_0_1_1_n_n.rhsNonContracting by decide)]
  rfl

/-- An entry of the product of a transposed left operand: both operands are read down their rows, the left one at the
    entry's row coordinate taken as a column. -/
private theorem mmC_apply {φ₁ φ₂ : FTy} (l : FVec Ideal S1024x256 φ₁) (r : FVec Ideal S1024x128 φ₂) (a : Fin 256) (b : Fin 128) :
    matmul dot_S1024x256_S1024x128_S256x128_0_0_1_1_n_n none l r (constant S256x128 .f32 0x00000000#32) (ix2 a b)
      = ∑ k : Fin 1024, l (ix2 k a) * r (ix2 k b) := by
  refine (Ideal.matmul_constant_zero_apply dot_S1024x256_S1024x128_S256x128_0_0_1_1_n_n none l r (ix2 a b)).trans ?_
  rw [← Equiv.sum_comp (ValueIdx.contrEquiv1 dot_S1024x256_S1024x128_S256x128_0_0_1_1_n_n 1024 rfl rfl).symm]
  refine Finset.sum_congr rfl fun k _ => ?_
  have hk := ValueIdx.contrEquiv1_symm_val dot_S1024x256_S1024x128_S256x128_0_0_1_1_n_n 1024 rfl rfl k
  have el : dot_S1024x256_S1024x128_S256x128_0_0_1_1_n_n.lhsIdx (ix2 a b) ((ValueIdx.contrEquiv1 dot_S1024x256_S1024x128_S256x128_0_0_1_1_n_n 1024 rfl rfl).symm k) = ix2 k a := funext fun ax => Fin.ext (by
    match ax with
    | ⟨0, _⟩ => exact (lhsC_0 _ _).trans hk
    | ⟨1, _⟩ => exact lhsC_1 _ _)
  have er : dot_S1024x256_S1024x128_S256x128_0_0_1_1_n_n.rhsIdx (ix2 a b) ((ValueIdx.contrEquiv1 dot_S1024x256_S1024x128_S256x128_0_0_1_1_n_n 1024 rfl rfl).symm k) = ix2 k b := funext fun ax => Fin.ext (by
    match ax with
    | ⟨0, _⟩ => exact (rhsC_0 _ _).trans hk
    | ⟨1, _⟩ => exact rhsC_1 _ _)
  rw [el, er]

/-! ## The linear layer and the three further products

  A change of float format is the identity on extended reals, so the operands are read straight through it. -/

theorem kLin_apply (x w : Vec Ideal S1024x1024 .f32) (b : Vec Ideal S1x1024 .f32) (i j : Fin 1024) :
    kLin x w b (ix2 i j) = Spec.lin (fun a t => x (ix2 a t)) (fun t c => w (ix2 t c)) (fun c => b (ix2 0 c)) i j := by
  unfold kLin
  refine (addf_apply _ _ _).trans ?_
  refine congrArg₂ (· + ·) (mmA_apply _ _ i j) ?_
  -- the bias: the one row laid along every row, read at its column
  refine (broadcastTo_1b_ab_apply _ _ i j).trans ?_
  rw [shapeCast_self]

theorem kMMq_apply (x : FVec Ideal S1024x1024 .f32) (w : Vec Ideal S1024x1024 .f32) (i j : Fin 1024) :
    kMMq x w (ix2 i j) = Spec.mm (fun a t => x (ix2 a t)) (fun t c => w (ix2 t c)) i j := by
  unfold kMMq
  exact mmA_apply _ _ i j

theorem kMMkv_apply (x : FVec Ideal S1024x1024 .f32) (w : Vec Ideal S1024x128 .f32) (i : Fin 1024) (j : Fin 128) :
    kMMkv x w (ix2 i j) = Spec.mm (fun a t => x (ix2 a t)) (fun t c => w (ix2 t c)) i j := by
  unfold kMMkv
  exact mmB_apply _ _ i j

theorem kKP_apply (pk : Vec Ideal S1024x256 .f32) (kv : FVec Ideal S1024x128 .f32) (a : Fin 256) (b : Fin 128) :
    kKP pk kv (ix2 a b) = Spec.mmTl (fun t c => pk (ix2 t c)) (fun t c => kv (ix2 t c)) a b := by
  unfold kKP
  -- the product is stored in the narrower format: the same extended real
  refine (truncf_apply (ψ := .bf16) _ Gen.bitsLt_bf16_f32 (ix2 a b)).trans ?_
  exact mmC_apply _ _ a b

/-! ## A head's 128 columns of the queries and 128 rows of the output weights

  A slice from offset `128·h` along one axis reads the whole matrix `128·h` further along that axis, which is the
  coordinate `Spec.hcol h` names. -/

theorem qCols0_apply (q : FVec Ideal S1024x1024 .f32) (i : Fin 1024) (dd : Fin 128) :
    qCols0 q (ix2 i dd) = q (ix2 i (Spec.hcol 0 dd)) :=
  slice2_axis1_apply 0 q _ i dd (Spec.hcol 0 dd) (by show (0 : Fin 8).val * 128 + dd.val = 0 + dd.val; rfl)
theorem woRows0_apply (wo : Vec Ideal S1024x1024 .f32) (dd : Fin 128) (j : Fin 1024) :
    woRows0 wo (ix2 dd j) = wo (ix2 (Spec.hcol 0 dd) j) :=
  slice2_axis0_apply 0 wo _ dd j (Spec.hcol 0 dd) (by show (0 : Fin 8).val * 128 + dd.val = 0 + dd.val; rfl)

theorem qCols1_apply (q : FVec Ideal S1024x1024 .f32) (i : Fin 1024) (dd : Fin 128) :
    qCols1 q (ix2 i dd) = q (ix2 i (Spec.hcol 1 dd)) :=
  slice2_axis1_apply 128 q _ i dd (Spec.hcol 1 dd) (by show (1 : Fin 8).val * 128 + dd.val = 128 + dd.val; rfl)
theorem woRows1_apply (wo : Vec Ideal S1024x1024 .f32) (dd : Fin 128) (j : Fin 1024) :
    woRows1 wo (ix2 dd j) = wo (ix2 (Spec.hcol 1 dd) j) :=
  slice2_axis0_apply 128 wo _ dd j (Spec.hcol 1 dd) (by show (1 : Fin 8).val * 128 + dd.val = 128 + dd.val; rfl)

theorem qCols2_apply (q : FVec Ideal S1024x1024 .f32) (i : Fin 1024) (dd : Fin 128) :
    qCols2 q (ix2 i dd) = q (ix2 i (Spec.hcol 2 dd)) :=
  slice2_axis1_apply 256 q _ i dd (Spec.hcol 2 dd) (by show (2 : Fin 8).val * 128 + dd.val = 256 + dd.val; rfl)
theorem woRows2_apply (wo : Vec Ideal S1024x1024 .f32) (dd : Fin 128) (j : Fin 1024) :
    woRows2 wo (ix2 dd j) = wo (ix2 (Spec.hcol 2 dd) j) :=
  slice2_axis0_apply 256 wo _ dd j (Spec.hcol 2 dd) (by show (2 : Fin 8).val * 128 + dd.val = 256 + dd.val; rfl)

theorem qCols3_apply (q : FVec Ideal S1024x1024 .f32) (i : Fin 1024) (dd : Fin 128) :
    qCols3 q (ix2 i dd) = q (ix2 i (Spec.hcol 3 dd)) :=
  slice2_axis1_apply 384 q _ i dd (Spec.hcol 3 dd) (by show (3 : Fin 8).val * 128 + dd.val = 384 + dd.val; rfl)
theorem woRows3_apply (wo : Vec Ideal S1024x1024 .f32) (dd : Fin 128) (j : Fin 1024) :
    woRows3 wo (ix2 dd j) = wo (ix2 (Spec.hcol 3 dd) j) :=
  slice2_axis0_apply 384 wo _ dd j (Spec.hcol 3 dd) (by show (3 : Fin 8).val * 128 + dd.val = 384 + dd.val; rfl)

theorem qCols4_apply (q : FVec Ideal S1024x1024 .f32) (i : Fin 1024) (dd : Fin 128) :
    qCols4 q (ix2 i dd) = q (ix2 i (Spec.hcol 4 dd)) :=
  slice2_axis1_apply 512 q _ i dd (Spec.hcol 4 dd) (by show (4 : Fin 8).val * 128 + dd.val = 512 + dd.val; rfl)
theorem woRows4_apply (wo : Vec Ideal S1024x1024 .f32) (dd : Fin 128) (j : Fin 1024) :
    woRows4 wo (ix2 dd j) = wo (ix2 (Spec.hcol 4 dd) j) :=
  slice2_axis0_apply 512 wo _ dd j (Spec.hcol 4 dd) (by show (4 : Fin 8).val * 128 + dd.val = 512 + dd.val; rfl)

theorem qCols5_apply (q : FVec Ideal S1024x1024 .f32) (i : Fin 1024) (dd : Fin 128) :
    qCols5 q (ix2 i dd) = q (ix2 i (Spec.hcol 5 dd)) :=
  slice2_axis1_apply 640 q _ i dd (Spec.hcol 5 dd) (by show (5 : Fin 8).val * 128 + dd.val = 640 + dd.val; rfl)
theorem woRows5_apply (wo : Vec Ideal S1024x1024 .f32) (dd : Fin 128) (j : Fin 1024) :
    woRows5 wo (ix2 dd j) = wo (ix2 (Spec.hcol 5 dd) j) :=
  slice2_axis0_apply 640 wo _ dd j (Spec.hcol 5 dd) (by show (5 : Fin 8).val * 128 + dd.val = 640 + dd.val; rfl)

theorem qCols6_apply (q : FVec Ideal S1024x1024 .f32) (i : Fin 1024) (dd : Fin 128) :
    qCols6 q (ix2 i dd) = q (ix2 i (Spec.hcol 6 dd)) :=
  slice2_axis1_apply 768 q _ i dd (Spec.hcol 6 dd) (by show (6 : Fin 8).val * 128 + dd.val = 768 + dd.val; rfl)
theorem woRows6_apply (wo : Vec Ideal S1024x1024 .f32) (dd : Fin 128) (j : Fin 1024) :
    woRows6 wo (ix2 dd j) = wo (ix2 (Spec.hcol 6 dd) j) :=
  slice2_axis0_apply 768 wo _ dd j (Spec.hcol 6 dd) (by show (6 : Fin 8).val * 128 + dd.val = 768 + dd.val; rfl)

theorem qCols7_apply (q : FVec Ideal S1024x1024 .f32) (i : Fin 1024) (dd : Fin 128) :
    qCols7 q (ix2 i dd) = q (ix2 i (Spec.hcol 7 dd)) :=
  slice2_axis1_apply 896 q _ i dd (Spec.hcol 7 dd) (by show (7 : Fin 8).val * 128 + dd.val = 896 + dd.val; rfl)
theorem woRows7_apply (wo : Vec Ideal S1024x1024 .f32) (dd : Fin 128) (j : Fin 1024) :
    woRows7 wo (ix2 dd j) = wo (ix2 (Spec.hcol 7 dd) j) :=
  slice2_axis0_apply 896 wo _ dd j (Spec.hcol 7 dd) (by show (7 : Fin 8).val * 128 + dd.val = 896 + dd.val; rfl)

end Cert.KernelIdeal.K

end
-- ==== Proof.KHead.lean ====
/-
  One attention head read at an index: its scaled scores are the products of its query row with each key, times the scale; a
  row's maximum is the fold of `max` from minus infinity over the row, against minus infinity once more; and its contribution
  to the projection at (i, j) is the sum over its 128 coordinates of (softmax of the scores against the keys) times the head's
  rows of the output weights.
-/
import proofs.«121415_j74371653697775_1_alg».proof.Proof.KStages
import proofs.«121415_j74371653697775_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.K

open Cert.KernelIdeal Cert.Spec
open Idealize.ShloMosaic Idealize.ShloMosaic.TcCoe Idealize.ShloMosaic.ValueIdx
open scoped BigOperators

/-! ## The three products at an index

Each product is read at an output index as the sum, over the one contracted coordinate, of the operands' entries. The four
coordinate facts of a product say, for each operand axis, whether it carries a coordinate of the output index or the
contracted one. -/

private theorem lhs_qk_0 (i : S1024x256.Idx) (q : dot_S1024x128_S256x128_S1024x256_1_1_0_0_n_n.contr.Idx) :
    (dot_S1024x128_S256x128_S1024x256_1_1_0_0_n_n.lhsIdx i q 0).val = (i 0).val := by
  unfold DotDims.lhsIdx
  rw [dif_neg (show ¬(0 : Fin S1024x128.rank) ∈ dot_S1024x128_S256x128_S1024x256_1_1_0_0_n_n.lhsBatch by decide), dif_pos (show (0 : Fin S1024x128.rank) ∈ dot_S1024x128_S256x128_S1024x256_1_1_0_0_n_n.lhsNonContracting by decide)]
  rfl
private theorem lhs_qk_1 (i : S1024x256.Idx) (q : dot_S1024x128_S256x128_S1024x256_1_1_0_0_n_n.contr.Idx) :
    (dot_S1024x128_S256x128_S1024x256_1_1_0_0_n_n.lhsIdx i q 1).val = (q ⟨0, by decide⟩).val :=
  dot_S1024x128_S256x128_S1024x256_1_1_0_0_n_n.lhsIdx_val_of_single rfl i q
private theorem rhs_qk_0 (i : S1024x256.Idx) (q : dot_S1024x128_S256x128_S1024x256_1_1_0_0_n_n.contr.Idx) :
    (dot_S1024x128_S256x128_S1024x256_1_1_0_0_n_n.rhsIdx i q 0).val = (i 1).val := by
  unfold DotDims.rhsIdx
  rw [dif_neg (show ¬(0 : Fin S256x128.rank) ∈ dot_S1024x128_S256x128_S1024x256_1_1_0_0_n_n.rhsBatch by decide), dif_pos (show (0 : Fin S256x128.rank) ∈ dot_S1024x128_S256x128_S1024x256_1_1_0_0_n_n.rhsNonContracting by decide)]
  rfl
private theorem rhs_qk_1 (i : S1024x256.Idx) (q : dot_S1024x128_S256x128_S1024x256_1_1_0_0_n_n.contr.Idx) :
    (dot_S1024x128_S256x128_S1024x256_1_1_0_0_n_n.rhsIdx i q 1).val = (q ⟨0, by decide⟩).val :=
  dot_S1024x128_S256x128_S1024x256_1_1_0_0_n_n.rhsIdx_val_of_single rfl i q

/-- Scores: entry (i, j) of `x · yᵀ` is `∑ t, x (i, t) · y (j, t)`. -/
private theorem dot_qk_apply (x : FVec Ideal S1024x128 .bf16) (y : FVec Ideal S256x128 .bf16) (i : Fin 1024) (j : Fin 256) :
    matmul dot_S1024x128_S256x128_S1024x256_1_1_0_0_n_n none x y (constant (F := Ideal) S1024x256 .f32 0x00000000#32) (ix2 i j)
      = ∑ t : Fin 128, x (ix2 i t) * y (ix2 j t) := by
  refine (Ideal.matmul_constant_zero_apply dot_S1024x128_S256x128_S1024x256_1_1_0_0_n_n none x y (ix2 i j)).trans ?_
  rw [← Equiv.sum_comp (ValueIdx.contrEquiv1 dot_S1024x128_S256x128_S1024x256_1_1_0_0_n_n 128 rfl rfl).symm]
  refine Finset.sum_congr rfl fun t _ => ?_
  have ht := ValueIdx.contrEquiv1_symm_val dot_S1024x128_S256x128_S1024x256_1_1_0_0_n_n 128 rfl rfl t
  have el : dot_S1024x128_S256x128_S1024x256_1_1_0_0_n_n.lhsIdx (ix2 i j) ((ValueIdx.contrEquiv1 dot_S1024x128_S256x128_S1024x256_1_1_0_0_n_n 128 rfl rfl).symm t) = ix2 i t := funext fun c => Fin.ext (by
    match c with
    | ⟨0, _⟩ => exact lhs_qk_0 _ _
    | ⟨1, _⟩ => exact (lhs_qk_1 _ _).trans ht)
  have er : dot_S1024x128_S256x128_S1024x256_1_1_0_0_n_n.rhsIdx (ix2 i j) ((ValueIdx.contrEquiv1 dot_S1024x128_S256x128_S1024x256_1_1_0_0_n_n 128 rfl rfl).symm t) = ix2 j t := funext fun c => Fin.ext (by
    match c with
    | ⟨0, _⟩ => exact rhs_qk_0 _ _
    | ⟨1, _⟩ => exact (rhs_qk_1 _ _).trans ht)
  rw [el, er]

private theorem lhs_pk_0 (i : S1024x128.Idx) (q : dot_S1024x256_S256x128_S1024x128_1_0_0_1_n_n.contr.Idx) :
    (dot_S1024x256_S256x128_S1024x128_1_0_0_1_n_n.lhsIdx i q 0).val = (i 0).val := by
  unfold DotDims.lhsIdx
  rw [dif_neg (show ¬(0 : Fin S1024x256.rank) ∈ dot_S1024x256_S256x128_S1024x128_1_0_0_1_n_n.lhsBatch by decide), dif_pos (show (0 : Fin S1024x256.rank) ∈ dot_S1024x256_S256x128_S1024x128_1_0_0_1_n_n.lhsNonContracting by decide)]
  rfl
private theorem lhs_pk_1 (i : S1024x128.Idx) (q : dot_S1024x256_S256x128_S1024x128_1_0_0_1_n_n.contr.Idx) :
    (dot_S1024x256_S256x128_S1024x128_1_0_0_1_n_n.lhsIdx i q 1).val = (q ⟨0, by decide⟩).val :=
  dot_S1024x256_S256x128_S1024x128_1_0_0_1_n_n.lhsIdx_val_of_single rfl i q
private theorem rhs_pk_0 (i : S1024x128.Idx) (q : dot_S1024x256_S256x128_S1024x128_1_0_0_1_n_n.contr.Idx) :
    (dot_S1024x256_S256x128_S1024x128_1_0_0_1_n_n.rhsIdx i q 0).val = (q ⟨0, by decide⟩).val :=
  dot_S1024x256_S256x128_S1024x128_1_0_0_1_n_n.rhsIdx_val_of_single rfl i q
private theorem rhs_pk_1 (i : S1024x128.Idx) (q : dot_S1024x256_S256x128_S1024x128_1_0_0_1_n_n.contr.Idx) :
    (dot_S1024x256_S256x128_S1024x128_1_0_0_1_n_n.rhsIdx i q 1).val = (i 1).val := by
  unfold DotDims.rhsIdx
  rw [dif_neg (show ¬(1 : Fin S256x128.rank) ∈ dot_S1024x256_S256x128_S1024x128_1_0_0_1_n_n.rhsBatch by decide), dif_pos (show (1 : Fin S256x128.rank) ∈ dot_S1024x256_S256x128_S1024x128_1_0_0_1_n_n.rhsNonContracting by decide)]
  rfl

/-- Weights against keys: entry (i, j) of `x · y` is `∑ t, x (i, t) · y (t, j)` over the 256 keys. -/
private theorem dot_pk_apply (x : FVec Ideal S1024x256 .bf16) (y : FVec Ideal S256x128 .bf16) (i : Fin 1024) (j : Fin 128) :
    matmul dot_S1024x256_S256x128_S1024x128_1_0_0_1_n_n none x y (constant (F := Ideal) S1024x128 .f32 0x00000000#32) (ix2 i j)
      = ∑ t : Fin 256, x (ix2 i t) * y (ix2 t j) := by
  refine (Ideal.matmul_constant_zero_apply dot_S1024x256_S256x128_S1024x128_1_0_0_1_n_n none x y (ix2 i j)).trans ?_
  rw [← Equiv.sum_comp (ValueIdx.contrEquiv1 dot_S1024x256_S256x128_S1024x128_1_0_0_1_n_n 256 rfl rfl).symm]
  refine Finset.sum_congr rfl fun t _ => ?_
  have ht := ValueIdx.contrEquiv1_symm_val dot_S1024x256_S256x128_S1024x128_1_0_0_1_n_n 256 rfl rfl t
  have el : dot_S1024x256_S256x128_S1024x128_1_0_0_1_n_n.lhsIdx (ix2 i j) ((ValueIdx.contrEquiv1 dot_S1024x256_S256x128_S1024x128_1_0_0_1_n_n 256 rfl rfl).symm t) = ix2 i t := funext fun c => Fin.ext (by
    match c with
    | ⟨0, _⟩ => exact lhs_pk_0 _ _
    | ⟨1, _⟩ => exact (lhs_pk_1 _ _).trans ht)
  have er : dot_S1024x256_S256x128_S1024x128_1_0_0_1_n_n.rhsIdx (ix2 i j) ((ValueIdx.contrEquiv1 dot_S1024x256_S256x128_S1024x128_1_0_0_1_n_n 256 rfl rfl).symm t) = ix2 t j := funext fun c => Fin.ext (by
    match c with
    | ⟨0, _⟩ => exact (rhs_pk_0 _ _).trans ht
    | ⟨1, _⟩ => exact rhs_pk_1 _ _)
  rw [el, er]

private theorem lhs_ow_0 (i : S1024x1024.Idx) (q : dot_S1024x128_S128x1024_S1024x1024_1_0_0_1_n_n.contr.Idx) :
    (dot_S1024x128_S128x1024_S1024x1024_1_0_0_1_n_n.lhsIdx i q 0).val = (i 0).val := by
  unfold DotDims.lhsIdx
  rw [dif_neg (show ¬(0 : Fin S1024x128.rank) ∈ dot_S1024x128_S128x1024_S1024x1024_1_0_0_1_n_n.lhsBatch by decide), dif_pos (show (0 : Fin S1024x128.rank) ∈ dot_S1024x128_S128x1024_S1024x1024_1_0_0_1_n_n.lhsNonContracting by decide)]
  rfl
private theorem lhs_ow_1 (i : S1024x1024.Idx) (q : dot_S1024x128_S128x1024_S1024x1024_1_0_0_1_n_n.contr.Idx) :
    (dot_S1024x128_S128x1024_S1024x1024_1_0_0_1_n_n.lhsIdx i q 1).val = (q ⟨0, by decide⟩).val :=
  dot_S1024x128_S128x1024_S1024x1024_1_0_0_1_n_n.lhsIdx_val_of_single rfl i q
private theorem rhs_ow_0 (i : S1024x1024.Idx) (q : dot_S1024x128_S128x1024_S1024x1024_1_0_0_1_n_n.contr.Idx) :
    (dot_S1024x128_S128x1024_S1024x1024_1_0_0_1_n_n.rhsIdx i q 0).val = (q ⟨0, by decide⟩).val :=
  dot_S1024x128_S128x1024_S1024x1024_1_0_0_1_n_n.rhsIdx_val_of_single rfl i q
private theorem rhs_ow_1 (i : S1024x1024.Idx) (q : dot_S1024x128_S128x1024_S1024x1024_1_0_0_1_n_n.contr.Idx) :
    (dot_S1024x128_S128x1024_S1024x1024_1_0_0_1_n_n.rhsIdx i q 1).val = (i 1).val := by
  unfold DotDims.rhsIdx
  rw [dif_neg (show ¬(1 : Fin S128x1024.rank) ∈ dot_S1024x128_S128x1024_S1024x1024_1_0_0_1_n_n.rhsBatch by decide), dif_pos (show (1 : Fin S128x1024.rank) ∈ dot_S1024x128_S128x1024_S1024x1024_1_0_0_1_n_n.rhsNonContracting by decide)]
  rfl

/-- Against the output weights: entry (i, j) of `x · y` is `∑ t, x (i, t) · y (t, j)` over the head's 128 coordinates. -/
private theorem dot_ow_apply (x : FVec Ideal S1024x128 .bf16) (y : FVec Ideal S128x1024 .bf16) (i : Fin 1024) (j : Fin 1024) :
    matmul dot_S1024x128_S128x1024_S1024x1024_1_0_0_1_n_n none x y (constant (F := Ideal) S1024x1024 .f32 0x00000000#32) (ix2 i j)
      = ∑ t : Fin 128, x (ix2 i t) * y (ix2 t j) := by
  refine (Ideal.matmul_constant_zero_apply dot_S1024x128_S128x1024_S1024x1024_1_0_0_1_n_n none x y (ix2 i j)).trans ?_
  rw [← Equiv.sum_comp (ValueIdx.contrEquiv1 dot_S1024x128_S128x1024_S1024x1024_1_0_0_1_n_n 128 rfl rfl).symm]
  refine Finset.sum_congr rfl fun t _ => ?_
  have ht := ValueIdx.contrEquiv1_symm_val dot_S1024x128_S128x1024_S1024x1024_1_0_0_1_n_n 128 rfl rfl t
  have el : dot_S1024x128_S128x1024_S1024x1024_1_0_0_1_n_n.lhsIdx (ix2 i j) ((ValueIdx.contrEquiv1 dot_S1024x128_S128x1024_S1024x1024_1_0_0_1_n_n 128 rfl rfl).symm t) = ix2 i t := funext fun c => Fin.ext (by
    match c with
    | ⟨0, _⟩ => exact lhs_ow_0 _ _
    | ⟨1, _⟩ => exact (lhs_ow_1 _ _).trans ht)
  have er : dot_S1024x128_S128x1024_S1024x1024_1_0_0_1_n_n.rhsIdx (ix2 i j) ((ValueIdx.contrEquiv1 dot_S1024x128_S128x1024_S1024x1024_1_0_0_1_n_n 128 rfl rfl).symm t) = ix2 t j := funext fun c => Fin.ext (by
    match c with
    | ⟨0, _⟩ => exact (rhs_ow_0 _ _).trans ht
    | ⟨1, _⟩ => exact rhs_ow_1 _ _)
  rw [el, er]

/-! ## Rows: the reduced index with a column put back, the row maximum, the row sum, a column spread along the rows -/

/-- The index over row `i` whose column is `t`. -/
private theorem lift_row (h : S1024x256.Reduces [1] S1024) (i : Fin 1024) (t : Fin 256) : h.lift (ix1 i) t = ix2 i t :=
  funext fun c => Fin.ext (by
    match c with
    | ⟨0, _⟩ => rfl
    | ⟨1, _⟩ => rfl)

/-- A row's maximum from minus infinity is the fold of `max` over the row's 256 entries. -/
private theorem rowFold_apply (x : FVec Ideal S1024x256 .f32) (h : S1024x256.Reduces [1] S1024) (hφ : FKind.Formats .f32)
    (hacc : (0xFF800000#32 : BitVec (FTy.bits .f32)) = FKind.maximumf.neutral .f32 hφ) (i : Fin 1024) :
    multiReduction .maximumf [1] S1024 x 0xFF800000#32 h hφ hacc (ix1 i)
      = (Finset.univ : Finset (Fin 256)).fold max (Ideal.ofBits .f32 0xFF800000#32) (fun t => x (ix2 i t)) := by
  refine (Ideal.multiReduction_maximumf_single x _ h hφ hacc (ix1 i)).trans ?_
  show (Finset.univ : Finset (Fin 256)).fold max (Ideal.ofBits .f32 0xFF800000#32) (fun t : Fin 256 => x (h.lift (ix1 i) t)) = _
  exact congrArg (fun f : Fin 256 → EReal => (Finset.univ : Finset (Fin 256)).fold max (Ideal.ofBits .f32 0xFF800000#32) f)
    (funext fun t => congrArg x (lift_row h i t))

/-- A row's sum from zero is the sum of the row's 256 entries. -/
private theorem rowSum_apply (x : FVec Ideal S1024x256 .f32) (h : S1024x256.Reduces [1] S1024) (hφ : FKind.Formats .f32)
    (hacc : (0x00000000#32 : BitVec (FTy.bits .f32)) = FKind.add.neutral .f32 hφ) (i : Fin 1024) :
    multiReduction .add [1] S1024 x 0x00000000#32 h hφ hacc (ix1 i) = ∑ t : Fin 256, x (ix2 i t) := by
  refine (Ideal.multiReduction_add_single x _ h hφ hacc (ix1 i)).trans ?_
  show ∑ t : Fin 256, x (h.lift (ix1 i) t) = _
  exact Finset.sum_congr rfl fun t _ => congrArg x (lift_row h i t)

/-- A vector laid as a column and spread along 256 columns reads, at (i, a), its entry `i`. -/
private theorem col_apply (v : FVec Ideal S1024 .f32) (hc : S1024.ShapeCasts S1024x1) (hb : S1024x1.Broadcasts S1024x256)
    (i : Fin 1024) (a : Fin 256) : broadcastTo S1024x256 (shapeCast S1024x1 v hc) hb (ix2 i a) = v (ix1 i) := by
  refine (broadcastTo_apply (shapeCast S1024x1 v hc) hb (ix2 i a) (ix2 i (0 : Fin 1)) fun c => ?_).trans ?_
  · match c with
    | ⟨0, _⟩ => show i.val = if (1024 : Nat) = 1 then 0 else i.val; rw [if_neg (by decide)]
    | ⟨1, _⟩ => show 0 = if (1 : Nat) = 1 then 0 else a.val; rw [if_pos rfl]
  · refine shapeCast_apply v hc (ix2 i (0 : Fin 1)) (ix1 i) ?_
    rw [Shape.rowMajor_val_one, Shape.rowMajor_val_two]
    show i.val = i.val * 1 + 0
    omega

/-! ## The head's weights: exponentials over their row sums -/

/-- The exponential of a score less the entry of `mx` for its row. -/
private theorem kExp_apply (s : FVec Ideal S1024x256 .f32) (mx : FVec Ideal S1024 .f32) (i : Fin 1024) (a : Fin 256) :
    kExp s mx (ix2 i a) = Ideal.exp (s (ix2 i a) - mx (ix1 i)) := by
  unfold kExp
  exact congrArg (fun z => Ideal.exp (s (ix2 i a) - z)) (col_apply mx _ _ i a)

theorem kScores_apply (qh : FVec Ideal S1024x128 .f32) (kp : FVec Ideal S256x128 .bf16) (i : Fin 1024) (a : Fin 256) :
    kScores qh kp (ix2 i a) = Spec.scaled (Spec.mmTr (fun r t => qh (ix2 r t)) (fun r t => kp (ix2 r t))) i a := by
  unfold kScores
  exact congrArg (· * Spec.cScale) (dot_qk_apply (truncf .bf16 qh Gen.bitsLt_bf16_f32) kp i a)

theorem kMax_apply (s : FVec Ideal S1024x256 .f32) (i : Fin 1024) :
    kMax s (ix1 i) = Spec.rowMax (fun r t => s (ix2 r t)) i := by
  unfold kMax
  exact congrArg (max Spec.cNegInf) (rowFold_apply s _ _ _ i)

/-- With the row maxima of the scores themselves, that exponential is the one the softmax is made of. -/
private theorem kExp_max_apply (s : FVec Ideal S1024x256 .f32) (i : Fin 1024) (a : Fin 256) :
    kExp s (kMax s) (ix2 i a) = Spec.expo (fun r t => s (ix2 r t)) i a := by
  rw [kExp_apply, kMax_apply]
  rfl

/-- The exponentials over their row sums, the sums laid as a column and spread along the row: the softmax at (i, a). -/
private theorem weights_apply (s : FVec Ideal S1024x256 .f32) (h : S1024x256.Reduces [1] S1024) (hφ : FKind.Formats .f32)
    (hacc : (0x00000000#32 : BitVec (FTy.bits .f32)) = FKind.add.neutral .f32 hφ) (hc : S1024.ShapeCasts S1024x1)
    (hb : S1024x1.Broadcasts S1024x256) (i : Fin 1024) (a : Fin 256) :
    divf (kExp s (kMax s))
        (broadcastTo S1024x256 (shapeCast S1024x1 (multiReduction .add [1] S1024 (kExp s (kMax s)) 0x00000000#32 h hφ hacc) hc) hb)
        (ix2 i a)
      = Spec.softmax (fun r t => s (ix2 r t)) i a := by
  refine (divf_apply _ _ _).trans ?_
  rw [col_apply, rowSum_apply, kExp_max_apply]
  exact congrArg (Ideal.div _) (Finset.sum_congr rfl fun t _ => kExp_max_apply s i t)

theorem kHeadOut_apply (s : FVec Ideal S1024x256 .f32) (kp : FVec Ideal S256x128 .bf16) (woh : FVec Ideal S128x1024 .f32)
    (i j : Fin 1024) :
    kHeadOut s (kMax s) kp woh (ix2 i j)
      = ∑ dd : Fin 128, Spec.mm (Spec.softmax (fun r t => s (ix2 r t))) (fun r t => kp (ix2 r t)) i dd * woh (ix2 dd j) := by
  unfold kHeadOut
  refine (dot_ow_apply _ _ i j).trans ?_
  refine Finset.sum_congr rfl fun dd _ => ?_
  refine congrArg (· * woh (ix2 dd j)) ?_
  refine (dot_pk_apply _ kp i dd).trans ?_
  refine Finset.sum_congr rfl fun a _ => ?_
  refine congrArg (· * kp (ix2 a dd)) ?_
  exact weights_apply s _ _ _ _ _ i a

end Cert.KernelIdeal.K

end
-- ==== Proof.KNorm.lean ====
/-
  The layer norm read at an index: the row's mean is its sum over the 1024 columns divided by 1024, the variance the mean of
  the squared deviations, and the entry is the deviation times the reciprocal root of (variance + epsilon), times the gain,
  plus the bias, plus the residual.
-/
import proofs.«121415_j74371653697775_1_alg».proof.Proof.KStages
import proofs.«121415_j74371653697775_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.K

open Cert.KernelIdeal Cert.Spec
open Idealize.ShloMosaic Idealize.ShloMosaic.TcCoe Idealize.ShloMosaic.ValueIdx
open scoped BigOperators

/-! ## The layout operations of the layer norm, read at an index -/

/-- A column laid along every row reads, at row `i` and any column, the column's entry `i`. -/
private theorem bcastCol_apply (col : FVec Ideal S1024x1 .f32) (i j : Fin 1024) :
    broadcastTo S1024x1024 col Gen.broadcasts_S1024x1_S1024x1024 (ix2 i j) = col (ix2 i 0) := by
  refine broadcastTo_apply col _ (ix2 i j) (ix2 i 0) fun a => ?_
  match a with
  | ⟨0, _⟩ => rfl
  | ⟨1, _⟩ => rfl

/-- A one-row matrix laid along every row reads, at any row and column `j`, the row's entry `j`. -/
private theorem bcastRow_apply (g : Vec Ideal S1x1024 .f32) (i j : Fin 1024) :
    broadcastTo S1024x1024 (shapeCast S1x1024 g Gen.shapeCasts_S1x1024_S1x1024) Gen.broadcasts_S1x1024_S1024x1024 (ix2 i j)
      = g (ix2 0 j) := by
  rw [shapeCast_self]
  refine broadcastTo_apply g _ (ix2 i j) (ix2 0 j) fun a => ?_
  match a with
  | ⟨0, _⟩ => rfl
  | ⟨1, _⟩ => rfl

/-- A vector of 1024 entries recast as a column keeps entry `i` at row `i`. -/
private theorem castCol_apply (v : FVec Ideal S1024 .f32) (i : Fin 1024) :
    shapeCast S1024x1 v Gen.shapeCasts_S1024_S1024x1 (ix2 i 0) = v (ix1 i) := by
  refine shapeCast_apply v _ (ix2 i 0) (ix1 i) ?_
  rw [Shape.rowMajor_val_one, Shape.rowMajor_val_two]
  show i.val = i.val * 1 + 0
  omega

/-- The sum along the columns, read at row `i`, is the sum of the row's 1024 entries. -/
private theorem rowSum_apply (x : FVec Ideal S1024x1024 .f32) (hφ : FKind.Formats .f32)
    (hacc : (0x00000000#32 : BitVec 32) = FKind.add.neutral .f32 hφ) (i : Fin 1024) :
    multiReduction .add [1] S1024 x 0x00000000#32 Gen.reduces_S1024x1024_S1024 hφ hacc (ix1 i)
      = ∑ t : Fin 1024, x (ix2 i t) := by
  refine (Ideal.multiReduction_add_single x _ Gen.reduces_S1024x1024_S1024 hφ hacc (ix1 i)).trans ?_
  refine Finset.sum_congr rfl fun k _ => congrArg x ?_
  funext a
  match a with
  | ⟨0, _⟩ => exact Fin.ext rfl
  | ⟨1, _⟩ => exact Fin.ext rfl

/-- A reciprocal root of a matrix reads entry by entry. -/
private theorem rsqrt_apply {s : Shape} (a : FVec Ideal s .f32) (i : s.Idx) : rsqrt a i = Ideal.rsqrt (a i) := rfl

/-! ## The mean and the squared deviations -/

/-- The kernel's row mean is the specification's. -/
private theorem kMean_apply (x : FVec Ideal S1024x1024 .f32) (i : Fin 1024) :
    kMean x (ix2 i 0) = Spec.mean (fun a t => x (ix2 a t)) i := by
  unfold kMean Spec.mean
  rw [divf_apply, castCol_apply, broadcast_apply]
  exact congrArg (fun s => Ideal.div s cN) (rowSum_apply x _ _ i)

/-- The kernel's squared deviation at an entry is the entry less its row's mean, squared. -/
private theorem kSqDev_apply (x : FVec Ideal S1024x1024 .f32) (i t : Fin 1024) :
    kSqDev x (ix2 i t)
      = (x (ix2 i t) - Spec.mean (fun a t => x (ix2 a t)) i) * (x (ix2 i t) - Spec.mean (fun a t => x (ix2 a t)) i) := by
  unfold kSqDev
  rw [mulf_apply, subf_apply, bcastCol_apply, kMean_apply]

/-! ## The layer norm -/

theorem kLN_apply (x : FVec Ideal S1024x1024 .f32) (g b : Vec Ideal S1x1024 .f32) (r : Vec Ideal S1024x1024 .f32) (i j : Fin 1024) :
    kLN x g b r (ix2 i j)
      = Spec.layernorm (fun a t => x (ix2 a t)) (fun c => g (ix2 0 c)) (fun c => b (ix2 0 c)) (fun a t => r (ix2 a t)) i j := by
  unfold kLN kLNof
  rw [addf_apply, addf_apply, mulf_apply, mulf_apply, subf_apply, bcastCol_apply, bcastCol_apply, bcastRow_apply, bcastRow_apply,
    kMean_apply, rsqrt_apply, addf_apply, divf_apply, castCol_apply, broadcast_apply, broadcast_apply]
  unfold Spec.layernorm Spec.var
  refine congrArg (fun s => (x (ix2 i j) - Spec.mean (fun a t => x (ix2 a t)) i) * Ideal.rsqrt (Ideal.div s cN + cEps) * g (ix2 0 j)
    + b (ix2 0 j) + r (ix2 i j)) ?_
  exact (rowSum_apply (kSqDev x) _ _ i).trans (Finset.sum_congr rfl fun t _ => kSqDev_apply x i t)

end Cert.KernelIdeal.K

end
-- ==== Proof.Blocks.lean ====
/-
  What each kernel's body leaves in its output block, read at an index, is the specification's node path (for the node
  kernel) and edge path (for the edge kernel) of the body's input blocks.

  The node body's stored value is the layer norm of the attention projection. The projection adds the eight heads'
  contributions one after the other onto a zero matrix and then the bias; at an index that is zero plus eight sums, which is
  the sum over the heads. Each head's contribution is the stage `kHead` of its 128 query columns, the keys and its 128 rows of
  the output weights, which at an index is the sum over the head's 128 coordinates of its attention output times the
  matching row of the output weights.
-/
import proofs.«121415_j74371653697775_1_alg».proof.Proof.Gen.KernelIdeal.Frame
import proofs.«121415_j74371653697775_1_alg».proof.Proof.KLinear
import proofs.«121415_j74371653697775_1_alg».proof.Proof.KHead
import proofs.«121415_j74371653697775_1_alg».proof.Proof.KNorm

noncomputable section

namespace Cert.KernelIdeal.Block

open Cert.KernelIdeal Cert.KernelIdeal.Gen Cert.KernelIdeal.K Cert.Spec
open Idealize.ShloMosaic Idealize.ShloMosaic.TcCoe Idealize.ShloMosaic.ValueIdx
open scoped BigOperators

/-- The origin every access of the bodies starts at. -/
theorem hz : (![0, 0] : Fin 2 → Nat) = fun _ => 0 := funext fun a => by fin_cases a <;> rfl

/-- A one-row vector laid along every row reads its entry in that column. -/
theorem row_bcast_apply (b : Vec Ideal S1x1024 .f32) (i j : Fin 1024) :
    broadcastTo S1024x1024 (k0_pay5 b) broadcasts_S1x1024_S1024x1024 (ix2 i j) = b (ix2 0 j) := by
  have e : k0_pay5 b = b := shapeCast_self b shapeCasts_S1x1024_S1x1024
  rw [e]
  refine broadcastTo_apply b broadcasts_S1x1024_S1024x1024 (ix2 i j) (ix2 (0 : Fin 1) j) ?_
  intro a
  match a with
  | ⟨0, _⟩ => rfl
  | ⟨1, _⟩ => show j.val = if (1024 : ℕ) = 1 then 0 else j.val; simp

/-- The zero matrix the projection starts from. -/
theorem zeros_apply (i j : Fin 1024) : (k0_pay6 (F := Ideal)) (ix2 i j) = 0 := Ideal.ofBits_zero_f32

section Heads

variable (q : FVec Ideal S1024x1024 .f32) (kp : FVec Ideal S256x128 .bf16) (wo : Vec Ideal S1024x1024 .f32)

/-- The queries, the keys and the output weights as matrices. -/
abbrev Qm : Mat 1024 1024 := fun a t => q (ix2 a t)
abbrev KPm : Mat 256 128 := fun a t => kp (ix2 a t)
abbrev WOm : Mat 1024 1024 := fun a t => wo (ix2 a t)

/-- Head 0's contribution at (i, j): the sum over its 128 coordinates of its attention output times the output weights' row. -/
theorem head0_apply (i j : Fin 1024) :
    kHeadOut (kScores (qCols0 q) kp) (kMax (kScores (qCols0 q) kp)) kp (woRows0 wo) (ix2 i j)
      = ∑ dd : Fin 128, attnHead (Qm q) (KPm kp) 0 i dd * WOm wo (hcol 0 dd) j := by
  rw [kHeadOut_apply]
  refine Finset.sum_congr rfl fun dd _ => ?_
  rw [woRows0_apply]
  have eq : (fun r' t' => qCols0 q (ix2 r' t')) = headOf (Qm q) 0 := by
    funext r' t'; rw [qCols0_apply]; rfl
  have e : (fun r t => kScores (qCols0 q) kp (ix2 r t)) = scaled (mmTr (headOf (Qm q) 0) (KPm kp)) := by
    funext r t
    rw [kScores_apply, eq]
  rw [e]
  rfl

/-- Head 1's contribution at (i, j): the sum over its 128 coordinates of its attention output times the output weights' row. -/
theorem head1_apply (i j : Fin 1024) :
    kHeadOut (kScores (qCols1 q) kp) (kMax (kScores (qCols1 q) kp)) kp (woRows1 wo) (ix2 i j)
      = ∑ dd : Fin 128, attnHead (Qm q) (KPm kp) 1 i dd * WOm wo (hcol 1 dd) j := by
  rw [kHeadOut_apply]
  refine Finset.sum_congr rfl fun dd _ => ?_
  rw [woRows1_apply]
  have eq : (fun r' t' => qCols1 q (ix2 r' t')) = headOf (Qm q) 1 := by
    funext r' t'; rw [qCols1_apply]; rfl
  have e : (fun r t => kScores (qCols1 q) kp (ix2 r t)) = scaled (mmTr (headOf (Qm q) 1) (KPm kp)) := by
    funext r t
    rw [kScores_apply, eq]
  rw [e]
  rfl

/-- Head 2's contribution at (i, j): the sum over its 128 coordinates of its attention output times the output weights' row. -/
theorem head2_apply (i j : Fin 1024) :
    kHeadOut (kScores (qCols2 q) kp) (kMax (kScores (qCols2 q) kp)) kp (woRows2 wo) (ix2 i j)
      = ∑ dd : Fin 128, attnHead (Qm q) (KPm kp) 2 i dd * WOm wo (hcol 2 dd) j := by
  rw [kHeadOut_apply]
  refine Finset.sum_congr rfl fun dd _ => ?_
  rw [woRows2_apply]
  have eq : (fun r' t' => qCols2 q (ix2 r' t')) = headOf (Qm q) 2 := by
    funext r' t'; rw [qCols2_apply]; rfl
  have e : (fun r t => kScores (qCols2 q) kp (ix2 r t)) = scaled (mmTr (headOf (Qm q) 2) (KPm kp)) := by
    funext r t
    rw [kScores_apply, eq]
  rw [e]
  rfl

/-- Head 3's contribution at (i, j): the sum over its 128 coordinates of its attention output times the output weights' row. -/
theorem head3_apply (i j : Fin 1024) :
    kHeadOut (kScores (qCols3 q) kp) (kMax (kScores (qCols3 q) kp)) kp (woRows3 wo) (ix2 i j)
      = ∑ dd : Fin 128, attnHead (Qm q) (KPm kp) 3 i dd * WOm wo (hcol 3 dd) j := by
  rw [kHeadOut_apply]
  refine Finset.sum_congr rfl fun dd _ => ?_
  rw [woRows3_apply]
  have eq : (fun r' t' => qCols3 q (ix2 r' t')) = headOf (Qm q) 3 := by
    funext r' t'; rw [qCols3_apply]; rfl
  have e : (fun r t => kScores (qCols3 q) kp (ix2 r t)) = scaled (mmTr (headOf (Qm q) 3) (KPm kp)) := by
    funext r t
    rw [kScores_apply, eq]
  rw [e]
  rfl

/-- Head 4's contribution at (i, j): the sum over its 128 coordinates of its attention output times the output weights' row. -/
theorem head4_apply (i j : Fin 1024) :
    kHeadOut (kScores (qCols4 q) kp) (kMax (kScores (qCols4 q) kp)) kp (woRows4 wo) (ix2 i j)
      = ∑ dd : Fin 128, attnHead (Qm q) (KPm kp) 4 i dd * WOm wo (hcol 4 dd) j := by
  rw [kHeadOut_apply]
  refine Finset.sum_congr rfl fun dd _ => ?_
  rw [woRows4_apply]
  have eq : (fun r' t' => qCols4 q (ix2 r' t')) = headOf (Qm q) 4 := by
    funext r' t'; rw [qCols4_apply]; rfl
  have e : (fun r t => kScores (qCols4 q) kp (ix2 r t)) = scaled (mmTr (headOf (Qm q) 4) (KPm kp)) := by
    funext r t
    rw [kScores_apply, eq]
  rw [e]
  rfl

/-- Head 5's contribution at (i, j): the sum over its 128 coordinates of its attention output times the output weights' row. -/
theorem head5_apply (i j : Fin 1024) :
    kHeadOut (kScores (qCols5 q) kp) (kMax (kScores (qCols5 q) kp)) kp (woRows5 wo) (ix2 i j)
      = ∑ dd : Fin 128, attnHead (Qm q) (KPm kp) 5 i dd * WOm wo (hcol 5 dd) j := by
  rw [kHeadOut_apply]
  refine Finset.sum_congr rfl fun dd _ => ?_
  rw [woRows5_apply]
  have eq : (fun r' t' => qCols5 q (ix2 r' t')) = headOf (Qm q) 5 := by
    funext r' t'; rw [qCols5_apply]; rfl
  have e : (fun r t => kScores (qCols5 q) kp (ix2 r t)) = scaled (mmTr (headOf (Qm q) 5) (KPm kp)) := by
    funext r t
    rw [kScores_apply, eq]
  rw [e]
  rfl

/-- Head 6's contribution at (i, j): the sum over its 128 coordinates of its attention output times the output weights' row. -/
theorem head6_apply (i j : Fin 1024) :
    kHeadOut (kScores (qCols6 q) kp) (kMax (kScores (qCols6 q) kp)) kp (woRows6 wo) (ix2 i j)
      = ∑ dd : Fin 128, attnHead (Qm q) (KPm kp) 6 i dd * WOm wo (hcol 6 dd) j := by
  rw [kHeadOut_apply]
  refine Finset.sum_congr rfl fun dd _ => ?_
  rw [woRows6_apply]
  have eq : (fun r' t' => qCols6 q (ix2 r' t')) = headOf (Qm q) 6 := by
    funext r' t'; rw [qCols6_apply]; rfl
  have e : (fun r t => kScores (qCols6 q) kp (ix2 r t)) = scaled (mmTr (headOf (Qm q) 6) (KPm kp)) := by
    funext r t
    rw [kScores_apply, eq]
  rw [e]
  rfl

/-- Head 7's contribution at (i, j): the sum over its 128 coordinates of its attention output times the output weights' row. -/
theorem head7_apply (i j : Fin 1024) :
    kHeadOut (kScores (qCols7 q) kp) (kMax (kScores (qCols7 q) kp)) kp (woRows7 wo) (ix2 i j)
      = ∑ dd : Fin 128, attnHead (Qm q) (KPm kp) 7 i dd * WOm wo (hcol 7 dd) j := by
  rw [kHeadOut_apply]
  refine Finset.sum_congr rfl fun dd _ => ?_
  rw [woRows7_apply]
  have eq : (fun r' t' => qCols7 q (ix2 r' t')) = headOf (Qm q) 7 := by
    funext r' t'; rw [qCols7_apply]; rfl
  have e : (fun r t => kScores (qCols7 q) kp (ix2 r t)) = scaled (mmTr (headOf (Qm q) 7) (KPm kp)) := by
    funext r t
    rw [kScores_apply, eq]
  rw [e]
  rfl

/-- The attention projection as the body computes it: the eight heads added onto zero in order, then the bias. -/
def xattn (bo : Vec Ideal S1x1024 .f32) : FVec Ideal S1024x1024 .f32 :=
  k0_pay18 q kp wo (k0_pay5 bo)
    (k0_pay15 q kp wo
      (k0_pay12 q kp wo
        (k0_pay9 q kp wo k0_pay6 (kScores (qCols0 q) kp) (kMax (kScores (qCols0 q) kp)))
        (k0_pay10 q kp) (k0_pay11 q kp))
      (k0_pay13 q kp) (k0_pay14 q kp))
    (k0_pay16 q kp) (k0_pay17 q kp)

/-- At an index it is the specification's projection: zero plus the eight heads' sums is the sum over the heads. -/
theorem xattn_apply (bo : Vec Ideal S1x1024 .f32) (i j : Fin 1024) :
    xattn q kp wo bo (ix2 i j) = attnProj (Qm q) (KPm kp) (WOm wo) (fun c => bo (ix2 0 c)) i j := by
  unfold xattn
  rw [pay18_eq, pay17_eq, pay16_eq, pay15_eq, pay14_eq, pay13_eq, pay12_eq, pay11_eq, pay10_eq, pay9_eq]
  simp only [kHead, addf_apply]
  rw [head0_apply, head1_apply, head2_apply, head3_apply, head4_apply, head5_apply, head6_apply, head7_apply,
    zeros_apply, row_bcast_apply]
  unfold attnProj
  exact congrArg (· + bo (ix2 0 j))
    (sum_eight_from_zero fun h => ∑ dd : Fin 128, attnHead (Qm q) (KPm kp) h i dd * WOm wo (hcol h dd) j)

end Heads

section Node

variable (x0 x1 : Vec Ideal S1024x1024 .f32) (x2 : Vec Ideal S1x1024 .f32) (x3 : Vec Ideal S1024x1024 .f32)
  (x4 : Vec Ideal S1024x128 .f32) (x5 : Vec Ideal S1024x256 .f32) (x6 : Vec Ideal S1024x1024 .f32) (x7 x8 x9 : Vec Ideal S1x1024 .f32)

/-- The node body's stored block: the layer norm of the projection of the queries and keys it computes first. -/
theorem node_out_eq :
    out0_10 x0 x1 x2 x3 x4 x5 x6 x7 x8 x9
      = kLN (xattn (k0_pay3 x0 x1 x2 x3) (k0_pay4 x0 x1 x2 x4 x5) x6 x7) x8 x9 x0 := by
  unfold out0_10
  rw [View.canon_unit_zero hz]
  simp only [View.ld_unit_zero (S := S1024x1024) hz, View.ld_unit_zero (S := S1x1024) hz,
    View.ld_unit_zero (S := S1024x128) hz, View.ld_unit_zero (S := S1024x256) hz]
  rfl

/-- The linear layer `nf · wq + bq` as a matrix. -/
theorem lin_eq : (fun a t => kLin x0 x1 x2 (ix2 a t))
    = lin (fun a t => x0 (ix2 a t)) (fun a t => x1 (ix2 a t)) (fun c => x2 (ix2 0 c)) := by
  funext a t; rw [kLin_apply]

/-- The queries. -/
theorem q_eq : Qm (k0_pay3 x0 x1 x2 x3)
    = mm (lin (fun a t => x0 (ix2 a t)) (fun a t => x1 (ix2 a t)) (fun c => x2 (ix2 0 c))) (fun a t => x3 (ix2 a t)) := by
  funext a t
  show k0_pay3 x0 x1 x2 x3 (ix2 a t) = _
  rw [pay3_eq, kMMq_apply, lin_eq]

/-- The low-rank keys. -/
theorem kp_eq : KPm (k0_pay4 x0 x1 x2 x4 x5)
    = mmTl (fun a t => x5 (ix2 a t))
        (mm (lin (fun a t => x0 (ix2 a t)) (fun a t => x1 (ix2 a t)) (fun c => x2 (ix2 0 c))) (fun a t => x4 (ix2 a t))) := by
  funext a t
  show k0_pay4 x0 x1 x2 x4 x5 (ix2 a t) = _
  rw [pay4_eq, kKP_apply]
  have e : (fun t' c => kMMkv (kLin x0 x1 x2) x4 (ix2 t' c))
      = mm (lin (fun a t => x0 (ix2 a t)) (fun a t => x1 (ix2 a t)) (fun c => x2 (ix2 0 c))) (fun a t => x4 (ix2 a t)) := by
    funext t' c; rw [kMMkv_apply, lin_eq]
  rw [e]

/-- THE NODE BLOCK at an index is the specification's node path of the body's ten input blocks. -/
theorem node_block (i j : Fin 1024) :
    out0_10 x0 x1 x2 x3 x4 x5 x6 x7 x8 x9 (ix2 i j)
      = Spec.node (fun a t => x0 (ix2 a t)) (fun a t => x1 (ix2 a t)) (fun c => x2 (ix2 0 c)) (fun a t => x3 (ix2 a t))
          (fun a t => x4 (ix2 a t)) (fun a t => x5 (ix2 a t)) (fun a t => x6 (ix2 a t)) (fun c => x7 (ix2 0 c))
          (fun c => x8 (ix2 0 c)) (fun c => x9 (ix2 0 c)) i j := by
  rw [node_out_eq, kLN_apply]
  have e : (fun a t => xattn (k0_pay3 x0 x1 x2 x3) (k0_pay4 x0 x1 x2 x4 x5) x6 x7 (ix2 a t))
      = attnProj
          (mm (lin (fun a t => x0 (ix2 a t)) (fun a t => x1 (ix2 a t)) (fun c => x2 (ix2 0 c))) (fun a t => x3 (ix2 a t)))
          (mmTl (fun a t => x5 (ix2 a t))
            (mm (lin (fun a t => x0 (ix2 a t)) (fun a t => x1 (ix2 a t)) (fun c => x2 (ix2 0 c))) (fun a t => x4 (ix2 a t))))
          (fun a t => x6 (ix2 a t)) (fun c => x7 (ix2 0 c)) := by
    funext a t
    rw [xattn_apply, q_eq, kp_eq]
  rw [e]
  rfl

end Node

/-- THE EDGE BLOCK at an index is the specification's edge path of the body's five input blocks. -/
theorem edge_block (x0 x1 : Vec Ideal S1024x1024 .f32) (x2 x3 x4 : Vec Ideal S1x1024 .f32) (i j : Fin 1024) :
    out1_5 x0 x1 x2 x3 x4 (ix2 i j)
      = Spec.edge (fun a t => x0 (ix2 a t)) (fun a t => x1 (ix2 a t)) (fun c => x2 (ix2 0 c)) (fun c => x3 (ix2 0 c))
          (fun c => x4 (ix2 0 c)) i j := by
  unfold out1_5
  rw [View.canon_unit_zero hz]
  simp only [View.ld_unit_zero (S := S1024x1024) hz, View.ld_unit_zero (S := S1x1024) hz]
  rw [edge_pay_eq, kLN_apply, lin_eq]
  rfl

end Cert.KernelIdeal.Block

end
-- ==== Proof.Arrays.lean ====
/-
  The two result arrays after the run, as functions of the argument arrays.

  The node call has one grid point and every window is its whole array, so the result array is the one block the body
  stores: the specification's node path of the arguments (the four bias and gain vectors through their reshape to one row).
  The edge call has 32 grid points; point `t` reads rows `1024·t … 1024·t + 1023` of the edge features and writes the same
  rows of the result, the weights and the three vectors whole at every point. The edge path of a row depends on that row of
  the features only, so block `t` of the result is block `t` of the edge path of the whole array; the 32 blocks tile the
  32768 rows, so the array is the edge path everywhere.
-/
import proofs.«121415_j74371653697775_1_alg».proof.Proof.Gen.KernelIdeal.Frame
import proofs.«121415_j74371653697775_1_alg».proof.Proof.Blocks
import Idealize.ShloMosaic.Lib.StableHlo.Run
import Idealize.ShloMosaic.Lib.Pipeline.Value
import Idealize.ShloMosaic.Lib.ValueIdx

set_option maxRecDepth 16384

noncomputable section

namespace Cert.KernelIdeal.Arrays

open Cert.KernelIdeal Cert.KernelIdeal.Gen Cert.Spec
open Idealize.ShloMosaic Idealize.ShloMosaic.TcCoe Idealize.SL.Sem Idealize.ShloMosaic.StableHlo Idealize.ShloMosaic.ValueIdx
open Idealize.ShloMosaic.Pipeline (Dat)
open scoped BigOperators

/-! ## The specification respects equal inputs, and the edge path of a row reads that row only -/

theorem edge_congr {n n' : ℕ} (X : Mat n 1024) (X' : Mat n' 1024) (W W' : Mat 1024 1024) (b b' g g' be be' : Row 1024)
    (i : Fin n) (i' : Fin n') (j j' : Fin 1024) (hX : ∀ t, X i t = X' i' t) (hW : W = W') (hb : b = b') (hg : g = g')
    (hbe : be = be') (hj : j = j') : edge X W b g be i j = edge X' W' b' g' be' i' j' := by
  subst hW hb hg hbe hj
  unfold edge layernorm var mean lin
  simp only [hX]

/-- An array of rank two as a matrix, and one of rank one as a vector. -/
abbrev mat {a b : ℕ} (A : (⟨2, ![a, b]⟩ : Shape).Idx → EReal) : Mat a b := fun r t => A (ix2 r t)
abbrev row {a : ℕ} (A : (⟨1, ![a]⟩ : Shape).Idx → EReal) : Row a := fun t => A (ix1 t)

/-- A vector reshaped to one row reads the vector's entry. -/
theorem reshape_row (x : S1024.Idx → EReal) (c' : Fin 1024) :
    shapeCast S1x1024 x shapeCasts_S1024_S1x1024 (ix2 (0 : Fin 1) c') = x (ix1 c') :=
  shapeCast_apply x shapeCasts_S1024_S1x1024 (ix2 (0 : Fin 1) c') (ix1 c')
    (by rw [Shape.rowMajor_val_one, Shape.rowMajor_val_two]; show c'.val = 0 * 1024 + c'.val; omega)

variable (m : (ℓ : Loc nD τ sig) → Buf (Elt Ideal) ℓ) (ρ : Dev nD → PrngReg)

/-! ## What each call finds in its arrays: the arguments as launched, the seven vectors reshaped to one row -/

theorem V1_arg0 (c : Dev nD) : V1 m ρ c main_arg0 = m ((c : Thread nD τ).loc main_arg0) := by
  show StableHlo.after hostOps0 (W0 m ρ c) (Proc.devRef .tc main_arg0) = _
  after_results
theorem V1_arg2 (c : Dev nD) : V1 m ρ c main_arg2 = m ((c : Thread nD τ).loc main_arg2) := by
  show StableHlo.after hostOps0 (W0 m ρ c) (Proc.devRef .tc main_arg2) = _
  after_results
theorem V1_arg6 (c : Dev nD) : V1 m ρ c main_arg6 = m ((c : Thread nD τ).loc main_arg6) := by
  show StableHlo.after hostOps0 (W0 m ρ c) (Proc.devRef .tc main_arg6) = _
  after_results
theorem V1_arg7 (c : Dev nD) : V1 m ρ c main_arg7 = m ((c : Thread nD τ).loc main_arg7) := by
  show StableHlo.after hostOps0 (W0 m ρ c) (Proc.devRef .tc main_arg7) = _
  after_results
theorem V1_arg8 (c : Dev nD) : V1 m ρ c main_arg8 = m ((c : Thread nD τ).loc main_arg8) := by
  show StableHlo.after hostOps0 (W0 m ρ c) (Proc.devRef .tc main_arg8) = _
  after_results
theorem V1_arg9 (c : Dev nD) : V1 m ρ c main_arg9 = m ((c : Thread nD τ).loc main_arg9) := by
  show StableHlo.after hostOps0 (W0 m ρ c) (Proc.devRef .tc main_arg9) = _
  after_results
theorem V1_v0 (c : Dev nD) : V1 m ρ c main_v0 = shapeCast S1x1024 (m ((c : Thread nD τ).loc main_arg3)) shapeCasts_S1024_S1x1024 := by
  show StableHlo.after hostOps0 (W0 m ρ c) (Proc.devRef .tc main_v0) = _
  after_results
  rfl
theorem V1_v2 (c : Dev nD) : V1 m ρ c main_v2 = shapeCast S1x1024 (m ((c : Thread nD τ).loc main_arg10)) shapeCasts_S1024_S1x1024 := by
  show StableHlo.after hostOps0 (W0 m ρ c) (Proc.devRef .tc main_v2) = _
  after_results
  rfl
theorem V1_v3 (c : Dev nD) : V1 m ρ c main_v3 = shapeCast S1x1024 (m ((c : Thread nD τ).loc main_arg11)) shapeCasts_S1024_S1x1024 := by
  show StableHlo.after hostOps0 (W0 m ρ c) (Proc.devRef .tc main_v3) = _
  after_results
  rfl
theorem V1_v4 (c : Dev nD) : V1 m ρ c main_v4 = shapeCast S1x1024 (m ((c : Thread nD τ).loc main_arg12)) shapeCasts_S1024_S1x1024 := by
  show StableHlo.after hostOps0 (W0 m ρ c) (Proc.devRef .tc main_v4) = _
  after_results
  rfl
theorem V2_arg1 (c : Dev nD) : V2 m ρ c main_arg1 = m ((c : Thread nD τ).loc main_arg1) := by
  refine (W2_of_ne m ρ c main_arg1 (by decide)).trans ?_
  show StableHlo.after hostOps0 (W0 m ρ c) (Proc.devRef .tc main_arg1) = _
  after_results
theorem V2_arg4 (c : Dev nD) : V2 m ρ c main_arg4 = m ((c : Thread nD τ).loc main_arg4) := by
  refine (W2_of_ne m ρ c main_arg4 (by decide)).trans ?_
  show StableHlo.after hostOps0 (W0 m ρ c) (Proc.devRef .tc main_arg4) = _
  after_results
theorem V2_v1 (c : Dev nD) : V2 m ρ c main_v1 = shapeCast S1x1024 (m ((c : Thread nD τ).loc main_arg5)) shapeCasts_S1024_S1x1024 := by
  refine (W2_of_ne m ρ c main_v1 (by decide)).trans ?_
  show StableHlo.after hostOps0 (W0 m ρ c) (Proc.devRef .tc main_v1) = _
  after_results
  rfl
theorem V2_v5 (c : Dev nD) : V2 m ρ c main_v5 = shapeCast S1x1024 (m ((c : Thread nD τ).loc main_arg13)) shapeCasts_S1024_S1x1024 := by
  refine (W2_of_ne m ρ c main_v5 (by decide)).trans ?_
  show StableHlo.after hostOps0 (W0 m ρ c) (Proc.devRef .tc main_v5) = _
  after_results
  rfl
theorem V2_v6 (c : Dev nD) : V2 m ρ c main_v6 = shapeCast S1x1024 (m ((c : Thread nD τ).loc main_arg14)) shapeCasts_S1024_S1x1024 := by
  refine (W2_of_ne m ρ c main_v6 (by decide)).trans ?_
  show StableHlo.after hostOps0 (W0 m ρ c) (Proc.devRef .tc main_v6) = _
  after_results
  rfl

/-! ## The two results as functions of the arguments -/

/-- The node result: the specification's node path of the arguments. -/
def Gnode (c : Dev nD) : S1024x1024.Idx → EReal := fun idx =>
  Spec.node (mat (m ((c : Thread nD τ).loc main_arg0) : S1024x1024.Idx → EReal)) (mat (m ((c : Thread nD τ).loc main_arg2) : S1024x1024.Idx → EReal))
    (row (m ((c : Thread nD τ).loc main_arg3) : S1024.Idx → EReal)) (mat (m ((c : Thread nD τ).loc main_arg6) : S1024x1024.Idx → EReal))
    (mat (m ((c : Thread nD τ).loc main_arg7) : S1024x128.Idx → EReal)) (mat (m ((c : Thread nD τ).loc main_arg8) : S1024x256.Idx → EReal))
    (mat (m ((c : Thread nD τ).loc main_arg9) : S1024x1024.Idx → EReal)) (row (m ((c : Thread nD τ).loc main_arg10) : S1024.Idx → EReal))
    (row (m ((c : Thread nD τ).loc main_arg11) : S1024.Idx → EReal)) (row (m ((c : Thread nD τ).loc main_arg12) : S1024.Idx → EReal))
    ⟨(idx 0).val, idx2_lt0 idx⟩ ⟨(idx 1).val, idx2_lt1 idx⟩

/-- The edge result: the specification's edge path of the arguments, over the 32768 rows. -/
def Gedge (c : Dev nD) : S32768x1024.Idx → EReal := fun idx =>
  Spec.edge (mat (m ((c : Thread nD τ).loc main_arg1) : S32768x1024.Idx → EReal)) (mat (m ((c : Thread nD τ).loc main_arg4) : S1024x1024.Idx → EReal))
    (row (m ((c : Thread nD τ).loc main_arg5) : S1024.Idx → EReal)) (row (m ((c : Thread nD τ).loc main_arg13) : S1024.Idx → EReal))
    (row (m ((c : Thread nD τ).loc main_arg14) : S1024.Idx → EReal))
    ⟨(idx 0).val, idx2_lt0 idx⟩ ⟨(idx 1).val, idx2_lt1 idx⟩

/-! ## The edge call: 32 row blocks -/

/-- The printed index maps over the 32 points: the features' and the result's blocks move together along the rows, column
    block 0; the weights and the vectors stay at block (0, 0). -/
theorem idx1 : ∀ t : Fin cfg1.N, win1_0.index t (0 : Fin 2) = win1_5.index t (0 : Fin 2)
    ∧ win1_0.index t (1 : Fin 2) = 0 ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 31 :=
  (by decide +kernel : ∀ t : Fin grid1.N, _)

/-- Every row block is some point's. -/
theorem idx1_onto : ∀ q0 : Fin 32, ∃ t : Fin cfg1.N, win1_5.index t = ![q0.val, 0] :=
  (by decide +kernel : ∀ q0 : Fin 32, ∃ t : Fin grid1.N, win1_5.index t = ![q0.val, 0])

/-- What point `t` writes back is block `t` of the edge path of the whole arrays. -/
theorem edge_flushed (c : Dev nD) (t : Fin cfg1.N) :
    (dat1 (V2 m ρ) c).flushed 5 t = ((cfg1.win 5).blk t).view.read (Elt Ideal) (Gedge m c) := by
  show (cfg1.win 5).cut (grid1.coords t) ((dat1 (V2 m ρ) c).after 5 t) = _
  rw [after1_5]
  obtain ⟨e00, e01, e51, e10, e11, e20, e21, e30, e31, e40, e41, e5b⟩ := idx1 t
  funext y
  show out1_5 (iblk1 (V2 m ρ) c 0 t) (iblk1 (V2 m ρ) c 1 t) (iblk1 (V2 m ρ) c 2 t) (iblk1 (V2 m ρ) c 3 t) (iblk1 (V2 m ρ) c 4 t) y
      = Gedge m c (((cfg1.win 5).blk t).view.emb y)
  refine (congrArg _ (eq_ix2 (n0 := 1024) (n1 := 1024) y)).trans ?_
  refine (Block.edge_block _ _ _ _ _ (y 0) (y 1)).trans ?_
  unfold Gedge
  refine edge_congr _ _ _ _ _ _ _ _ _ _ _ _ _ _ ?_ ?_ ?_ ?_ ?_ ?_
  · intro t'
    show V2 m ρ c main_arg1 (((cfg1.win 0).blk t).view.emb (ix2 (y 0) t')) = _
    rw [V2_arg1]
    refine congrArg (m ((c : Thread nD τ).loc main_arg1)) (funext fun a => Fin.ext ?_)
    match a with
    | ⟨0, _⟩ => show win1_0.index t (0 : Fin 2) * 1024 + 1 * (y 0).val = win1_5.index t (0 : Fin 2) * 1024 + 1 * (y 0).val; omega
    | ⟨1, _⟩ => show win1_0.index t (1 : Fin 2) * 1024 + 1 * t'.val = t'.val; omega
  · funext a t'
    show V2 m ρ c main_arg4 (((cfg1.win 1).blk t).view.emb (ix2 a t')) = _
    rw [V2_arg4]
    refine congrArg (m ((c : Thread nD τ).loc main_arg4)) (funext fun k => Fin.ext ?_)
    match k with
    | ⟨0, _⟩ => show win1_1.index t (0 : Fin 2) * 1024 + 1 * a.val = a.val; omega
    | ⟨1, _⟩ => show win1_1.index t (1 : Fin 2) * 1024 + 1 * t'.val = t'.val; omega
  · funext c'
    show V2 m ρ c main_v1 (((cfg1.win 2).blk t).view.emb (ix2 (0 : Fin 1) c')) = _
    rw [V2_v1]
    refine (congrArg _ (funext fun k => Fin.ext ?_)).trans (reshape_row _ c')
    match k with
    | ⟨0, _⟩ => show win1_2.index t (0 : Fin 2) * 1 + 1 * 0 = 0; omega
    | ⟨1, _⟩ => show win1_2.index t (1 : Fin 2) * 1024 + 1 * c'.val = c'.val; omega
  · funext c'
    show V2 m ρ c main_v5 (((cfg1.win 3).blk t).view.emb (ix2 (0 : Fin 1) c')) = _
    rw [V2_v5]
    refine (congrArg _ (funext fun k => Fin.ext ?_)).trans (reshape_row _ c')
    match k with
    | ⟨0, _⟩ => show win1_3.index t (0 : Fin 2) * 1 + 1 * 0 = 0; omega
    | ⟨1, _⟩ => show win1_3.index t (1 : Fin 2) * 1024 + 1 * c'.val = c'.val; omega
  · funext c'
    show V2 m ρ c main_v6 (((cfg1.win 4).blk t).view.emb (ix2 (0 : Fin 1) c')) = _
    rw [V2_v6]
    refine (congrArg _ (funext fun k => Fin.ext ?_)).trans (reshape_row _ c')
    match k with
    | ⟨0, _⟩ => show win1_4.index t (0 : Fin 2) * 1 + 1 * 0 = 0; omega
    | ⟨1, _⟩ => show win1_4.index t (1 : Fin 2) * 1024 + 1 * c'.val = c'.val; omega
  · refine Fin.ext ?_
    show (y 1).val = win1_5.index t (1 : Fin 2) * 1024 + 1 * (y 1).val
    omega

/-- An index of the result is in point `t`'s block iff each coordinate is in the block's range on its axis. -/
theorem edge_mem_blk (t : Fin cfg1.N) (i : S32768x1024.Idx) :
    i ∈ ((cfg1.win 5).blk t).view.set ↔ ∀ a : Fin 2, win1_5.index t a * S1024x1024.size a ≤ (i a).val ∧ (i a).val < win1_5.index t a * S1024x1024.size a + S1024x1024.size a := by
  show i ∈ ((View.whole main_v8).slice (win1_5.rect t)).set ↔ _
  rw [View.set_slice_whole, Rect.mem_set_unit]
  exact Iff.rfl

/-- The 32 blocks tile the result. -/
theorem edge_cover (i : S32768x1024.Idx) :
    ∃ t : Fin cfg1.N, (cfg1.win 5).flush t = true ∧ i ∈ ((cfg1.win 5).blk t).view.set := by
  have hi0 : (i 0).val < 32768 := (i 0).isLt
  have hi1 : (i 1).val < 1024 := (i 1).isLt
  obtain ⟨t, ht⟩ := idx1_onto ⟨(i 0).val / 1024, by omega⟩
  have q0 : win1_5.index t (0 : Fin 2) = (i 0).val / 1024 := congrFun ht 0
  have q1 : win1_5.index t (1 : Fin 2) = 0 := congrFun ht 1
  refine ⟨t, flush1_5 t, ?_⟩
  rw [edge_mem_blk]
  intro a
  match a with
  | ⟨0, _⟩ => show win1_5.index t (0 : Fin 2) * 1024 ≤ (i 0).val ∧ (i 0).val < win1_5.index t (0 : Fin 2) * 1024 + 1024; omega
  | ⟨1, _⟩ => show win1_5.index t (1 : Fin 2) * 1024 ≤ (i 1).val ∧ (i 1).val < win1_5.index t (1 : Fin 2) * 1024 + 1024; omega

/-- THE EDGE RESULT after the run. -/
theorem W3_v8_eq (c : Dev nD) : W3 m ρ c (Proc.devRef .tc main_v8) = Gedge m c :=
  (W3_arr m ρ c 5).trans
    ((dat1 (V2 m ρ) c).arrAt_eq_of_cover 5 (Gedge m c) (fun t _ => edge_flushed m ρ c t) (edge_cover))

/-! ## The node call: one point, every window its whole array -/

theorem node_congr (a0 a0' a1 a1' : Mat 1024 1024) (a2 a2' : Row 1024) (a3 a3' : Mat 1024 1024) (a4 a4' : Mat 1024 128)
    (a5 a5' : Mat 1024 256) (a6 a6' : Mat 1024 1024) (a7 a7' a8 a8' a9 a9' : Row 1024) (i i' j j' : Fin 1024)
    (h0 : a0 = a0') (h1 : a1 = a1') (h2 : a2 = a2') (h3 : a3 = a3') (h4 : a4 = a4') (h5 : a5 = a5') (h6 : a6 = a6')
    (h7 : a7 = a7') (h8 : a8 = a8') (h9 : a9 = a9') (hi : i = i') (hj : j = j') :
    node a0 a1 a2 a3 a4 a5 a6 a7 a8 a9 i j = node a0' a1' a2' a3' a4' a5' a6' a7' a8' a9' i' j' := by
  subst h0 h1 h2 h3 h4 h5 h6 h7 h8 h9 hi hj
  rfl

/-- The printed index maps at the one point: every window at block (0, 0). -/
theorem idx0 : ∀ t : Fin cfg0.N, win0_0.index t (0 : Fin 2) = 0
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0 :=
  (by decide +kernel : ∀ t : Fin grid0.N, _)

/-- What the one point writes back is the node path of the whole arrays. -/
theorem node_flushed (c : Dev nD) (t : Fin cfg0.N) :
    (dat0 (V1 m ρ) c).flushed 10 t = ((cfg0.win 10).blk t).view.read (Elt Ideal) (Gnode m c) := by
  show (cfg0.win 10).cut (grid0.coords t) ((dat0 (V1 m ρ) c).after 10 t) = _
  rw [after0_10]
  obtain ⟨e0a, e0b, e1a, e1b, e2a, e2b, e3a, e3b, e4a, e4b, e5a, e5b, e6a, e6b, e7a, e7b, e8a, e8b, e9a, e9b, e10a, e10b⟩ := idx0 t
  funext y
  show out0_10 (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) y
      = Gnode m c (((cfg0.win 10).blk t).view.emb y)
  refine (congrArg _ (eq_ix2 (n0 := 1024) (n1 := 1024) y)).trans ?_
  refine (Block.node_block _ _ _ _ _ _ _ _ _ _ (y 0) (y 1)).trans ?_
  unfold Gnode
  refine node_congr _ _ _ _ _ _ _ _ _ _ _ _ _ _ _ _ _ _ _ _ _ _ _ _ ?_ ?_ ?_ ?_ ?_ ?_ ?_ ?_ ?_ ?_ ?_ ?_
  · funext a t'
    show V1 m ρ c main_arg0 (((cfg0.win 0).blk t).view.emb (ix2 a t')) = _
    rw [V1_arg0]
    refine congrArg (m ((c : Thread nD τ).loc main_arg0)) (funext fun k => Fin.ext ?_)
    match k with
    | ⟨0, _⟩ => show win0_0.index t (0 : Fin 2) * 1024 + 1 * a.val = a.val; omega
    | ⟨1, _⟩ => show win0_0.index t (1 : Fin 2) * 1024 + 1 * t'.val = t'.val; omega
  · funext a t'
    show V1 m ρ c main_arg2 (((cfg0.win 1).blk t).view.emb (ix2 a t')) = _
    rw [V1_arg2]
    refine congrArg (m ((c : Thread nD τ).loc main_arg2)) (funext fun k => Fin.ext ?_)
    match k with
    | ⟨0, _⟩ => show win0_1.index t (0 : Fin 2) * 1024 + 1 * a.val = a.val; omega
    | ⟨1, _⟩ => show win0_1.index t (1 : Fin 2) * 1024 + 1 * t'.val = t'.val; omega
  · funext c'
    show V1 m ρ c main_v0 (((cfg0.win 2).blk t).view.emb (ix2 (0 : Fin 1) c')) = _
    rw [V1_v0]
    refine (congrArg _ (funext fun k => Fin.ext ?_)).trans (reshape_row _ c')
    match k with
    | ⟨0, _⟩ => show win0_2.index t (0 : Fin 2) * 1 + 1 * 0 = 0; omega
    | ⟨1, _⟩ => show win0_2.index t (1 : Fin 2) * 1024 + 1 * c'.val = c'.val; omega
  · funext a t'
    show V1 m ρ c main_arg6 (((cfg0.win 3).blk t).view.emb (ix2 a t')) = _
    rw [V1_arg6]
    refine congrArg (m ((c : Thread nD τ).loc main_arg6)) (funext fun k => Fin.ext ?_)
    match k with
    | ⟨0, _⟩ => show win0_3.index t (0 : Fin 2) * 1024 + 1 * a.val = a.val; omega
    | ⟨1, _⟩ => show win0_3.index t (1 : Fin 2) * 1024 + 1 * t'.val = t'.val; omega
  · funext a t'
    show V1 m ρ c main_arg7 (((cfg0.win 4).blk t).view.emb (ix2 a t')) = _
    rw [V1_arg7]
    refine congrArg (m ((c : Thread nD τ).loc main_arg7)) (funext fun k => Fin.ext ?_)
    match k with
    | ⟨0, _⟩ => show win0_4.index t (0 : Fin 2) * 1024 + 1 * a.val = a.val; omega
    | ⟨1, _⟩ => show win0_4.index t (1 : Fin 2) * 128 + 1 * t'.val = t'.val; omega
  · funext a t'
    show V1 m ρ c main_arg8 (((cfg0.win 5).blk t).view.emb (ix2 a t')) = _
    rw [V1_arg8]
    refine congrArg (m ((c : Thread nD τ).loc main_arg8)) (funext fun k => Fin.ext ?_)
    match k with
    | ⟨0, _⟩ => show win0_5.index t (0 : Fin 2) * 1024 + 1 * a.val = a.val; omega
    | ⟨1, _⟩ => show win0_5.index t (1 : Fin 2) * 256 + 1 * t'.val = t'.val; omega
  · funext a t'
    show V1 m ρ c main_arg9 (((cfg0.win 6).blk t).view.emb (ix2 a t')) = _
    rw [V1_arg9]
    refine congrArg (m ((c : Thread nD τ).loc main_arg9)) (funext fun k => Fin.ext ?_)
    match k with
    | ⟨0, _⟩ => show win0_6.index t (0 : Fin 2) * 1024 + 1 * a.val = a.val; omega
    | ⟨1, _⟩ => show win0_6.index t (1 : Fin 2) * 1024 + 1 * t'.val = t'.val; omega
  · funext c'
    show V1 m ρ c main_v2 (((cfg0.win 7).blk t).view.emb (ix2 (0 : Fin 1) c')) = _
    rw [V1_v2]
    refine (congrArg _ (funext fun k => Fin.ext ?_)).trans (reshape_row _ c')
    match k with
    | ⟨0, _⟩ => show win0_7.index t (0 : Fin 2) * 1 + 1 * 0 = 0; omega
    | ⟨1, _⟩ => show win0_7.index t (1 : Fin 2) * 1024 + 1 * c'.val = c'.val; omega
  · funext c'
    show V1 m ρ c main_v3 (((cfg0.win 8).blk t).view.emb (ix2 (0 : Fin 1) c')) = _
    rw [V1_v3]
    refine (congrArg _ (funext fun k => Fin.ext ?_)).trans (reshape_row _ c')
    match k with
    | ⟨0, _⟩ => show win0_8.index t (0 : Fin 2) * 1 + 1 * 0 = 0; omega
    | ⟨1, _⟩ => show win0_8.index t (1 : Fin 2) * 1024 + 1 * c'.val = c'.val; omega
  · funext c'
    show V1 m ρ c main_v4 (((cfg0.win 9).blk t).view.emb (ix2 (0 : Fin 1) c')) = _
    rw [V1_v4]
    refine (congrArg _ (funext fun k => Fin.ext ?_)).trans (reshape_row _ c')
    match k with
    | ⟨0, _⟩ => show win0_9.index t (0 : Fin 2) * 1 + 1 * 0 = 0; omega
    | ⟨1, _⟩ => show win0_9.index t (1 : Fin 2) * 1024 + 1 * c'.val = c'.val; omega
  · refine Fin.ext ?_
    show (y 0).val = win0_10.index t (0 : Fin 2) * 1024 + 1 * (y 0).val
    omega
  · refine Fin.ext ?_
    show (y 1).val = win0_10.index t (1 : Fin 2) * 1024 + 1 * (y 1).val
    omega

/-- An index of the result is in the point's block iff each coordinate is in the block's range on its axis. -/
theorem node_mem_blk (t : Fin cfg0.N) (i : S1024x1024.Idx) :
    i ∈ ((cfg0.win 10).blk t).view.set ↔ ∀ a : Fin 2, win0_10.index t a * S1024x1024.size a ≤ (i a).val ∧ (i a).val < win0_10.index t a * S1024x1024.size a + S1024x1024.size a := by
  show i ∈ ((View.whole main_v7).slice (win0_10.rect t)).set ↔ _
  rw [View.set_slice_whole, Rect.mem_set_unit]
  exact Iff.rfl

/-- The one block is the whole result. -/
theorem node_cover (i : S1024x1024.Idx) :
    ∃ t : Fin cfg0.N, (cfg0.win 10).flush t = true ∧ i ∈ ((cfg0.win 10).blk t).view.set := by
  have hi0 : (i 0).val < 1024 := (i 0).isLt
  have hi1 : (i 1).val < 1024 := (i 1).isLt
  obtain ⟨e0a, e0b, e1a, e1b, e2a, e2b, e3a, e3b, e4a, e4b, e5a, e5b, e6a, e6b, e7a, e7b, e8a, e8b, e9a, e9b, e10a, e10b⟩ := idx0 t0_0
  refine ⟨t0_0, flush0_10 t0_0, ?_⟩
  rw [node_mem_blk]
  intro a
  match a with
  | ⟨0, _⟩ => show win0_10.index t0_0 (0 : Fin 2) * 1024 ≤ (i 0).val ∧ (i 0).val < win0_10.index t0_0 (0 : Fin 2) * 1024 + 1024; omega
  | ⟨1, _⟩ => show win0_10.index t0_0 (1 : Fin 2) * 1024 ≤ (i 1).val ∧ (i 1).val < win0_10.index t0_0 (1 : Fin 2) * 1024 + 1024; omega

/-- THE NODE RESULT after the run. -/
theorem W3_v7_eq (c : Dev nD) : W3 m ρ c (Proc.devRef .tc main_v7) = Gnode m c :=
  ((W3_of_ne m ρ c main_v7 (by decide)).trans (W2_arr m ρ c 10)).trans
    ((dat0 (V1 m ρ) c).arrAt_eq_of_cover 10 (Gnode m c) (fun t _ => node_flushed m ρ c t) (node_cover))

end Cert.KernelIdeal.Arrays

end
-- ==== Proof.RefNode.lean ====
/-
  The reference's node result read at an index is the node path of the specification: its products are sums over the
  contracted coordinate, its heads are the reshape of the 1024 query columns to 8 × 128 with the head axis moved to the
  front, its softmax is along the last axis, its one product against the output weights over all 1024 coordinates is
  regrouped as the sum over heads of the sum over each head's 128 coordinates, and its layer norm is the specification's.
-/
import proofs.«121415_j74371653697775_1_alg».proof.Proof.Gen.ReferenceIdeal.Read
import proofs.«121415_j74371653697775_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.RefValue

open Cert.ReferenceIdeal Cert.ReferenceIdeal.Read Cert.Spec
open Idealize.ShloMosaic Idealize.ShloMosaic.TcCoe Idealize.ShloMosaic.ValueIdx
open scoped BigOperators

/-! ## The stages, one at a time

Each intermediate of the reference is read at explicit coordinates and identified with the specification's function of
the same name. -/

section Stages

variable (x0 x2 : (⟨S1024x1024, .f32⟩ : BufTy).Contents (Elt Ideal)) (x3 : (⟨S1024, .f32⟩ : BufTy).Contents (Elt Ideal))
    (x6 : (⟨S1024x1024, .f32⟩ : BufTy).Contents (Elt Ideal)) (x7 : (⟨S1024x128, .f32⟩ : BufTy).Contents (Elt Ideal))
    (x8 : (⟨S1024x256, .f32⟩ : BufTy).Contents (Elt Ideal)) (x9 : (⟨S1024x1024, .f32⟩ : BufTy).Contents (Elt Ideal))
    (x10 x11 x12 : (⟨S1024, .f32⟩ : BufTy).Contents (Elt Ideal))

/-- The linear layer `nf · wq + bq`. -/
private abbrev XQ : Mat 1024 1024 :=
  lin (fun a t => x0 (ix2 a t)) (fun a t => x2 (ix2 a t)) (fun t => x3 (ix1 t))
/-- The queries. -/
private abbrev Q : Mat 1024 1024 := mm (XQ x0 x2 x3) (fun a t => x6 (ix2 a t))
/-- The keys before the low-rank projection. -/
private abbrev KV : Mat 1024 128 := mm (XQ x0 x2 x3) (fun a t => x7 (ix2 a t))
/-- The low-rank keys. -/
private abbrev KP : Mat 256 128 := mmTl (fun a t => x8 (ix2 a t)) (KV x0 x2 x3 x7)
/-- Head `h`'s scaled scores. -/
private abbrev SC (h : Fin 8) : Mat 1024 256 := scaled (mmTr (headOf (Q x0 x2 x3 x6) h) (KP x0 x2 x3 x7 x8))

/-- The linear layer: the product's sum over the contracted coordinate plus the bias broadcast along the rows. -/
private theorem v3_eq (i j : Fin 1024) :
    val_main_v3 (F := Ideal) x0 x2 x3 (ix2 i j) = XQ x0 x2 x3 i j := by
  rw [val_main_v3_apply, val_main_v0_apply, val_main_v2_apply, val_main_v1_apply]
  have e0 : ∀ k : Fin 1024, lidx_main_v0 (ix2 i j) k = ix2 i k := fun k =>
    funext fun a => match a with | ⟨0, _⟩ => rfl | ⟨1, _⟩ => rfl
  have e1 : ∀ k : Fin 1024, ridx_main_v0 (ix2 i j) k = ix2 k j := fun k =>
    funext fun a => match a with | ⟨0, _⟩ => rfl | ⟨1, _⟩ => rfl
  have e2 : idx_main_v1 (idx_main_v2 (ix2 i j)) = ix1 j :=
    funext fun a => match a with | ⟨0, _⟩ => rfl
  simp only [e0, e1, e2, Ideal.addf_def]
  rfl

/-- The queries: the sum over the contracted coordinate of the linear layer's row against the weights' column. -/
private theorem v4_eq (i j : Fin 1024) :
    val_main_v4 (F := Ideal) x0 x2 x3 x6 (ix2 i j) = Q x0 x2 x3 x6 i j := by
  rw [val_main_v4_apply]
  refine Finset.sum_congr rfl fun k _ => ?_
  have e0 : lidx_main_v4 (ix2 i j) k = ix2 i k := funext fun a => match a with | ⟨0, _⟩ => rfl | ⟨1, _⟩ => rfl
  have e1 : ridx_main_v4 (ix2 i j) k = ix2 k j := funext fun a => match a with | ⟨0, _⟩ => rfl | ⟨1, _⟩ => rfl
  rw [e0, e1, v3_eq]

/-- The keys before projection, likewise. -/
private theorem v5_eq (i : Fin 1024) (c : Fin 128) :
    val_main_v5 (F := Ideal) x0 x2 x3 x7 (ix2 i c) = KV x0 x2 x3 x7 i c := by
  rw [val_main_v5_apply]
  refine Finset.sum_congr rfl fun k _ => ?_
  have e0 : lidx_main_v5 (ix2 i c) k = ix2 i k := funext fun a => match a with | ⟨0, _⟩ => rfl | ⟨1, _⟩ => rfl
  have e1 : ridx_main_v5 (ix2 i c) k = ix2 k c := funext fun a => match a with | ⟨0, _⟩ => rfl | ⟨1, _⟩ => rfl
  rw [e0, e1, v3_eq]

/-- The low-rank keys: both operands are contracted along their rows. -/
private theorem v6_eq (a : Fin 256) (b : Fin 128) :
    val_main_v6 (F := Ideal) x0 x2 x3 x7 x8 (ix2 a b) = KP x0 x2 x3 x7 x8 a b := by
  rw [val_main_v6_apply]
  refine Finset.sum_congr rfl fun k _ => ?_
  have e0 : lidx_main_v6 (ix2 a b) k = ix2 k a := funext fun c => match c with | ⟨0, _⟩ => rfl | ⟨1, _⟩ => rfl
  have e1 : ridx_main_v6 (ix2 a b) k = ix2 k b := funext fun c => match c with | ⟨0, _⟩ => rfl | ⟨1, _⟩ => rfl
  rw [e0, e1, v5_eq]

/-- The heads: row-major, column `h·128 + d` of the 1024 is entry `(h, d)` of the 8 × 128, and the head axis moves to
    the front. -/
private theorem v8_eq (h : Fin 8) (i : Fin 1024) (dd : Fin 128) :
    val_main_v8 (F := Ideal) x0 x2 x3 x6 (ix3 h i dd) = Q x0 x2 x3 x6 i (hcol h dd) := by
  rw [val_main_v8_apply, val_main_v7_apply]
  have e : idx_main_v7 (idx_main_v8 (ix3 h i dd)) = ix2 i (hcol h dd) := by
    have hh := h.isLt; have hi := i.isLt; have hd := dd.isLt
    funext a
    match a with
    | ⟨0, _⟩ => exact Fin.ext (by show ((i.val * 8 + h.val) * 128 + dd.val) / 1024 = i.val; omega)
    | ⟨1, _⟩ => exact Fin.ext (by show ((i.val * 8 + h.val) * 128 + dd.val) % 1024 = h.val * 128 + dd.val; omega)
  rw [e, v4_eq]

/-- Head `h`'s scaled scores: the head's 128 query columns against the keys' columns, times the scale. -/
private theorem v11_eq (h : Fin 8) (i : Fin 1024) (a : Fin 256) :
    val_main_v11 (F := Ideal) x0 x2 x3 x6 x7 x8 (ix3 h i a) = SC x0 x2 x3 x6 x7 x8 h i a := by
  rw [val_main_v11_apply, val_main_v10_apply, val_main_cst_apply, val_main_v9_apply]
  simp only [Ideal.mulf_def, Ideal.ofBits_def]
  refine congrArg (· * cScale) ?_
  refine Finset.sum_congr rfl fun k _ => ?_
  have e0 : lidx_main_v9 (ix3 h i a) k = ix3 h i k :=
    funext fun c => match c with | ⟨0, _⟩ => rfl | ⟨1, _⟩ => rfl | ⟨2, _⟩ => rfl
  have e1 : ridx_main_v9 (ix3 h i a) k = ix2 a k := funext fun c => match c with | ⟨0, _⟩ => rfl | ⟨1, _⟩ => rfl
  rw [e0, e1, v8_eq, v6_eq]
  rfl

/-- Head `h`'s row maximum before the second comparison with minus infinity: the fold of the maximum over the 256 keys. -/
private theorem v12_eq (h : Fin 8) (i : Fin 1024) :
    val_main_v12 (F := Ideal) x0 x2 x3 x6 x7 x8 (ix2 h i)
      = (Finset.univ : Finset (Fin 256)).fold max cNegInf (SC x0 x2 x3 x6 x7 x8 h i) := by
  unfold val_main_v12
  have hr : S8x1024x256.Reduces [2] S8x1024 := by decide
  rw [Host.reduce_eq_fold_single (FloatOps.maximumf (F := Ideal) (φ := .f32)) _ _ Gen.reducesTo_S8x1024x256_S8x1024_d2 hr Gen.h_S_ (ix2 h i)]
  rw [val_main_cst_0_apply]
  have e : (val_main_v11 (F := Ideal) x0 x2 x3 x6 x7 x8 ∘ hr.lift (ix2 h i)) = SC x0 x2 x3 x6 x7 x8 h i := by
    refine funext fun (k : Fin 256) => ?_
    have ek : hr.lift (ix2 h i) k = ix3 h i k :=
      funext fun c => match c with | ⟨0, _⟩ => rfl | ⟨1, _⟩ => rfl | ⟨2, _⟩ => rfl
    exact (congrArg (val_main_v11 (F := Ideal) x0 x2 x3 x6 x7 x8) ek).trans (v11_eq x0 x2 x3 x6 x7 x8 h i k)
  rw [e]
  rfl

/-- The row maximum, taken against minus infinity once more. -/
private theorem v14_eq (h : Fin 8) (i : Fin 1024) :
    val_main_v14 (F := Ideal) x0 x2 x3 x6 x7 x8 (ix2 h i) = rowMax (SC x0 x2 x3 x6 x7 x8 h) i := by
  rw [val_main_v14_apply, val_main_v13_apply, val_main_cst_1_apply, v12_eq]
  rfl

/-- The exponential of each score less its row's maximum. -/
private theorem v18_eq (h : Fin 8) (i : Fin 1024) (a : Fin 256) :
    val_main_v18 (F := Ideal) x0 x2 x3 x6 x7 x8 (ix3 h i a) = expo (SC x0 x2 x3 x6 x7 x8 h) i a := by
  rw [val_main_v18_apply, val_main_v17_apply, val_main_v16_apply, val_main_v15_apply]
  have e : idx_main_v15 (idx_main_v16 (ix3 h i a)) = ix2 h i :=
    funext fun c => match c with | ⟨0, _⟩ => rfl | ⟨1, _⟩ => rfl
  rw [e, v14_eq, v11_eq]
  rfl

/-- The softmax's denominator: the sum of the exponentials along the 256 keys, onto zero. -/
private theorem v19_eq (h : Fin 8) (i : Fin 1024) :
    val_main_v19 (F := Ideal) x0 x2 x3 x6 x7 x8 (ix2 h i) = ∑ b : Fin 256, expo (SC x0 x2 x3 x6 x7 x8 h) i b := by
  rw [val_main_v19_apply, val_main_cst_2_apply]
  simp only [Ideal.ofBits_def, Ideal.ofBits_zero_f32, zero_add]
  refine Finset.sum_congr rfl fun k _ => ?_
  have e : idx_main_v19 (ix2 h i) k = ix3 h i k :=
    funext fun c => match c with | ⟨0, _⟩ => rfl | ⟨1, _⟩ => rfl | ⟨2, _⟩ => rfl
  rw [e, v18_eq]

/-- The softmax along the keys. -/
private theorem v22_eq (h : Fin 8) (i : Fin 1024) (a : Fin 256) :
    val_main_v22 (F := Ideal) x0 x2 x3 x6 x7 x8 (ix3 h i a) = softmax (SC x0 x2 x3 x6 x7 x8 h) i a := by
  rw [val_main_v22_apply, val_main_v21_apply, val_main_v20_apply]
  have e : idx_main_v20 (idx_main_v21 (ix3 h i a)) = ix2 h i :=
    funext fun c => match c with | ⟨0, _⟩ => rfl | ⟨1, _⟩ => rfl
  rw [e, v19_eq, v18_eq]
  rfl

/-- Head `h`'s attention output: the softmax against the keys. -/
private theorem v23_eq (h : Fin 8) (i : Fin 1024) (dd : Fin 128) :
    val_main_v23 (F := Ideal) x0 x2 x3 x6 x7 x8 (ix3 h i dd)
      = attnHead (Q x0 x2 x3 x6) (KP x0 x2 x3 x7 x8) h i dd := by
  rw [val_main_v23_apply]
  show _ = ∑ t : Fin 256, softmax (SC x0 x2 x3 x6 x7 x8 h) i t * KP x0 x2 x3 x7 x8 t dd
  refine Finset.sum_congr rfl fun k _ => ?_
  have e0 : lidx_main_v23 (ix3 h i dd) k = ix3 h i k :=
    funext fun c => match c with | ⟨0, _⟩ => rfl | ⟨1, _⟩ => rfl | ⟨2, _⟩ => rfl
  have e1 : ridx_main_v23 (ix3 h i dd) k = ix2 k dd := funext fun c => match c with | ⟨0, _⟩ => rfl | ⟨1, _⟩ => rfl
  rw [e0, e1, v22_eq, v6_eq]

/-- The heads side by side again: column `h·128 + d` of the 1024 is head `h`'s entry `d`. -/
private theorem v25_eq (i : Fin 1024) (h : Fin 8) (dd : Fin 128) :
    val_main_v25 (F := Ideal) x0 x2 x3 x6 x7 x8 (ix2 i (hcol h dd))
      = attnHead (Q x0 x2 x3 x6) (KP x0 x2 x3 x7 x8) h i dd := by
  rw [val_main_v25_apply, val_main_v24_apply]
  have e : idx_main_v24 (idx_main_v25 (ix2 i (hcol h dd))) = ix3 h i dd := by
    have hh := h.isLt; have hi := i.isLt; have hd := dd.isLt
    funext a
    match a with
    | ⟨0, _⟩ => exact Fin.ext (by show (i.val * 1024 + (h.val * 128 + dd.val)) / 128 % 8 = h.val; omega)
    | ⟨1, _⟩ => exact Fin.ext (by show (i.val * 1024 + (h.val * 128 + dd.val)) / 1024 = i.val; omega)
    | ⟨2, _⟩ => exact Fin.ext (by show (i.val * 1024 + (h.val * 128 + dd.val)) % 128 = dd.val; omega)
  rw [e, v23_eq]

/-- The projection: the one sum over the 1024 coordinates is the sum over the heads of the sum over each head's 128. -/
private theorem v29_eq (i j : Fin 1024) :
    val_main_v29 (F := Ideal) x0 x2 x3 x6 x7 x8 x9 x10 (ix2 i j)
      = attnProj (Q x0 x2 x3 x6) (KP x0 x2 x3 x7 x8) (fun a t => x9 (ix2 a t)) (fun t => x10 (ix1 t)) i j := by
  rw [val_main_v29_apply, val_main_v26_apply, val_main_v28_apply, val_main_v27_apply]
  have e0 : ∀ k : Fin 1024, lidx_main_v26 (ix2 i j) k = ix2 i k := fun k =>
    funext fun a => match a with | ⟨0, _⟩ => rfl | ⟨1, _⟩ => rfl
  have e1 : ∀ k : Fin 1024, ridx_main_v26 (ix2 i j) k = ix2 k j := fun k =>
    funext fun a => match a with | ⟨0, _⟩ => rfl | ⟨1, _⟩ => rfl
  have e2 : idx_main_v27 (idx_main_v28 (ix2 i j)) = ix1 j :=
    funext fun a => match a with | ⟨0, _⟩ => rfl
  simp only [e0, e1, e2, Ideal.addf_def]
  rw [Spec.sum_heads (fun k => val_main_v25 (F := Ideal) x0 x2 x3 x6 x7 x8 (ix2 i k) * x9 (ix2 k j))]
  simp only [v25_eq]
  rfl

/-- The attention block's output, the layer norm's input. -/
private abbrev AP : Mat 1024 1024 :=
  attnProj (Q x0 x2 x3 x6) (KP x0 x2 x3 x7 x8) (fun a t => x9 (ix2 a t)) (fun t => x10 (ix1 t))

/-- A row's sum over its 1024 entries, onto zero. -/
private theorem v34_eq (i : Fin 1024) :
    val_main_v34 (F := Ideal) x0 x2 x3 x6 x7 x8 x9 x10 (ix1 i) = ∑ t : Fin 1024, AP x0 x2 x3 x6 x7 x8 x9 x10 i t := by
  rw [val_main_v34_apply, val_main_cst_3_apply]
  simp only [Ideal.ofBits_def, Ideal.ofBits_zero_f32, zero_add]
  refine Finset.sum_congr rfl fun k _ => ?_
  have e : idx_main_v34 (ix1 i) k = ix2 i k := funext fun c => match c with | ⟨0, _⟩ => rfl | ⟨1, _⟩ => rfl
  rw [e, v29_eq]

/-- The row's mean, kept as a column. -/
private theorem v37_eq (i : Fin 1024) (z : Fin 1) :
    val_main_v37 (F := Ideal) x0 x2 x3 x6 x7 x8 x9 x10 (ix2 i z) = mean (AP x0 x2 x3 x6 x7 x8 x9 x10) i := by
  rw [val_main_v37_apply, val_main_v36_apply, val_main_cst_4_apply, val_main_v35_apply]
  have e : idx_main_v35 (ix2 i z) = ix1 i := funext fun c => match c with | ⟨0, _⟩ => rfl
  rw [e, v34_eq]
  rfl

/-- The deviation from the row's mean. -/
private theorem v39_eq (i j : Fin 1024) :
    val_main_v39 (F := Ideal) x0 x2 x3 x6 x7 x8 x9 x10 (ix2 i j)
      = AP x0 x2 x3 x6 x7 x8 x9 x10 i j - mean (AP x0 x2 x3 x6 x7 x8 x9 x10) i := by
  rw [val_main_v39_apply, val_main_v38_apply]
  have e : idx_main_v38 (ix2 i j) = ix2 i (⟨0, Nat.one_pos⟩ : Fin 1) :=
    funext fun c => match c with | ⟨0, _⟩ => rfl | ⟨1, _⟩ => rfl
  rw [e, v37_eq, v29_eq]
  rfl

/-- The sum of the squared deviations along the row, onto zero. -/
private theorem v41_eq (i : Fin 1024) :
    val_main_v41 (F := Ideal) x0 x2 x3 x6 x7 x8 x9 x10 (ix1 i)
      = ∑ t : Fin 1024, (AP x0 x2 x3 x6 x7 x8 x9 x10 i t - mean (AP x0 x2 x3 x6 x7 x8 x9 x10) i)
          * (AP x0 x2 x3 x6 x7 x8 x9 x10 i t - mean (AP x0 x2 x3 x6 x7 x8 x9 x10) i) := by
  rw [val_main_v41_apply, val_main_cst_5_apply]
  simp only [Ideal.ofBits_def, Ideal.ofBits_zero_f32, zero_add]
  refine Finset.sum_congr rfl fun k _ => ?_
  have e : idx_main_v41 (ix1 i) k = ix2 i k := funext fun c => match c with | ⟨0, _⟩ => rfl | ⟨1, _⟩ => rfl
  rw [e, val_main_v40_apply, v39_eq]
  rfl

/-- The row's variance, kept as a column. -/
private theorem v44_eq (i : Fin 1024) (z : Fin 1) :
    val_main_v44 (F := Ideal) x0 x2 x3 x6 x7 x8 x9 x10 (ix2 i z) = var (AP x0 x2 x3 x6 x7 x8 x9 x10) i := by
  rw [val_main_v44_apply, val_main_v43_apply, val_main_cst_6_apply, val_main_v42_apply]
  have e : idx_main_v42 (ix2 i z) = ix1 i := funext fun c => match c with | ⟨0, _⟩ => rfl
  rw [e, v41_eq]
  rfl

/-- The reciprocal square root of the variance plus epsilon, kept as a column. -/
private theorem v49_eq (i : Fin 1024) (z : Fin 1) :
    val_main_v49 (F := Ideal) x0 x2 x3 x6 x7 x8 x9 x10 (ix2 i z)
      = Ideal.rsqrt (var (AP x0 x2 x3 x6 x7 x8 x9 x10) i + cEps) := by
  rw [val_main_v49_apply, val_main_v48_apply, val_main_v47_apply, val_main_cst_7_apply, v44_eq]
  rfl

/-- The normalized entry: the deviation times the reciprocal square root. -/
private theorem v51_eq (i j : Fin 1024) :
    val_main_v51 (F := Ideal) x0 x2 x3 x6 x7 x8 x9 x10 (ix2 i j)
      = (AP x0 x2 x3 x6 x7 x8 x9 x10 i j - mean (AP x0 x2 x3 x6 x7 x8 x9 x10) i)
          * Ideal.rsqrt (var (AP x0 x2 x3 x6 x7 x8 x9 x10) i + cEps) := by
  rw [val_main_v51_apply, val_main_v50_apply, val_main_v46_apply, val_main_v45_apply]
  have e0 : idx_main_v50 (ix2 i j) = ix2 i (⟨0, Nat.one_pos⟩ : Fin 1) :=
    funext fun c => match c with | ⟨0, _⟩ => rfl | ⟨1, _⟩ => rfl
  have e1 : idx_main_v45 (ix2 i j) = ix2 i (⟨0, Nat.one_pos⟩ : Fin 1) :=
    funext fun c => match c with | ⟨0, _⟩ => rfl | ⟨1, _⟩ => rfl
  rw [e0, e1, v49_eq, v37_eq, v29_eq]
  rfl

/-- The gain and the bias broadcast along the rows. -/
private theorem v57_eq (i j : Fin 1024) :
    val_main_v57 (F := Ideal) x0 x2 x3 x6 x7 x8 x9 x10 x11 x12 (ix2 i j)
      = (AP x0 x2 x3 x6 x7 x8 x9 x10 i j - mean (AP x0 x2 x3 x6 x7 x8 x9 x10) i)
          * Ideal.rsqrt (var (AP x0 x2 x3 x6 x7 x8 x9 x10) i + cEps) * x11 (ix1 j) + x12 (ix1 j) := by
  rw [val_main_v57_apply, val_main_v56_apply, val_main_v55_apply, val_main_v54_apply, val_main_v53_apply,
    val_main_v52_apply]
  have e0 : idx_main_v55 (idx_main_v56 (ix2 i j)) = ix1 j := funext fun c => match c with | ⟨0, _⟩ => rfl
  have e1 : idx_main_v52 (idx_main_v53 (ix2 i j)) = ix1 j := funext fun c => match c with | ⟨0, _⟩ => rfl
  rw [e0, e1, v51_eq]
  rfl

end Stages

theorem ref_node (x0 x2 : (⟨S1024x1024, .f32⟩ : BufTy).Contents (Elt Ideal)) (x3 : (⟨S1024, .f32⟩ : BufTy).Contents (Elt Ideal))
    (x6 : (⟨S1024x1024, .f32⟩ : BufTy).Contents (Elt Ideal)) (x7 : (⟨S1024x128, .f32⟩ : BufTy).Contents (Elt Ideal))
    (x8 : (⟨S1024x256, .f32⟩ : BufTy).Contents (Elt Ideal)) (x9 : (⟨S1024x1024, .f32⟩ : BufTy).Contents (Elt Ideal))
    (x10 x11 x12 : (⟨S1024, .f32⟩ : BufTy).Contents (Elt Ideal)) (i j : Fin 1024) :
    val_main_v58 (F := Ideal) x0 x2 x3 x6 x7 x8 x9 x10 x11 x12 (ix2 i j)
      = Spec.node (fun a t => x0 (ix2 a t)) (fun a t => x2 (ix2 a t)) (fun t => x3 (ix1 t)) (fun a t => x6 (ix2 a t))
          (fun a t => x7 (ix2 a t)) (fun a t => x8 (ix2 a t)) (fun a t => x9 (ix2 a t)) (fun t => x10 (ix1 t))
          (fun t => x11 (ix1 t)) (fun t => x12 (ix1 t)) i j := by
  rw [val_main_v58_apply, v57_eq]
  rfl

end Cert.ReferenceIdeal.RefValue

end
-- ==== Proof.RefEdge.lean ====
/-
  The reference's edge result read at an index is the edge path of the specification over its 32768 rows: a product as a sum
  over the contracted coordinate plus the bias, then the layer norm and the residual.
-/
import proofs.«121415_j74371653697775_1_alg».proof.Proof.Gen.ReferenceIdeal.Read
import proofs.«121415_j74371653697775_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.RefValue

open Cert.ReferenceIdeal Cert.ReferenceIdeal.Read Cert.Spec
open Idealize.ShloMosaic Idealize.ShloMosaic.TcCoe Idealize.ShloMosaic.ValueIdx
open scoped BigOperators

section Stages

variable (x1 : (⟨S32768x1024, .f32⟩ : BufTy).Contents (Elt Ideal)) (x4 : (⟨S1024x1024, .f32⟩ : BufTy).Contents (Elt Ideal))
  (x5 : (⟨S1024, .f32⟩ : BufTy).Contents (Elt Ideal))

/-- The linear layer's output `ef · w + b` as a matrix by row and column. -/
private abbrev linM : Spec.Mat 32768 1024 :=
  Spec.lin (fun a t => x1 (ix2 a t)) (fun a t => x4 (ix2 a t)) (fun t => x5 (ix1 t))

/-- The product read at `(i, j)` is the sum over the contracted coordinate, and the twice-broadcast bias reads `b j`. -/
private theorem v33_at (i : Fin 32768) (j : Fin 1024) :
    val_main_v33 (F := Ideal) x1 x4 x5 (ix2 i j) = linM x1 x4 x5 i j := by
  rw [val_main_v33_apply, val_main_v30_apply, val_main_v32_apply, val_main_v31_apply]
  have eb : idx_main_v31 (idx_main_v32 (ix2 i j)) = ix1 j :=
    funext fun a => by match a with | ⟨0, _⟩ => rfl
  rw [eb]
  show (∑ k : Fin 1024, x1 (lidx_main_v30 (ix2 i j) k) * x4 (ridx_main_v30 (ix2 i j) k)) + x5 (ix1 j)
      = (∑ t : Fin 1024, x1 (ix2 i t) * x4 (ix2 t j)) + x5 (ix1 j)
  refine congrArg (· + x5 (ix1 j)) (Finset.sum_congr rfl fun k _ => ?_)
  have el : lidx_main_v30 (ix2 i j) k = ix2 i k :=
    funext fun a => by match a with | ⟨0, _⟩ => rfl | ⟨1, _⟩ => rfl
  have er : ridx_main_v30 (ix2 i j) k = ix2 k j :=
    funext fun a => by match a with | ⟨0, _⟩ => rfl | ⟨1, _⟩ => rfl
  rw [el, er]

/-- The row sum: the zero word is `0`, and the reduced coordinate runs over the row. -/
private theorem v59_at (i : Fin 32768) :
    val_main_v59 (F := Ideal) x1 x4 x5 (ix1 i) = ∑ t : Fin 1024, linM x1 x4 x5 i t := by
  rw [val_main_v59_apply, val_main_cst_8_apply]
  show Ideal.ofBits .f32 0x00000000#32 + _ = _
  rw [Ideal.ofBits_zero_f32, zero_add]
  refine Finset.sum_congr rfl fun k _ => ?_
  have e : idx_main_v59 (ix1 i) k = ix2 i k :=
    funext fun a => by match a with | ⟨0, _⟩ => rfl | ⟨1, _⟩ => rfl
  rw [e]
  exact v33_at x1 x4 x5 i k

/-- The row sum as a column, divided by the splat `1024`: the row's mean. -/
private theorem v62_at (i : Fin 32768) :
    val_main_v62 (F := Ideal) x1 x4 x5 (ix2 i (0 : Fin 1)) = Spec.mean (linM x1 x4 x5) i := by
  rw [val_main_v62_apply, val_main_v60_apply, val_main_v61_apply, val_main_cst_9_apply]
  have e : idx_main_v60 (ix2 i (0 : Fin 1)) = ix1 i :=
    funext fun a => by match a with | ⟨0, _⟩ => rfl
  rw [e, v59_at]
  rfl

/-- An entry less its row's mean (the mean column broadcast along the row). -/
private theorem v64_at (i : Fin 32768) (j : Fin 1024) :
    val_main_v64 (F := Ideal) x1 x4 x5 (ix2 i j) = linM x1 x4 x5 i j - Spec.mean (linM x1 x4 x5) i := by
  rw [val_main_v64_apply, val_main_v63_apply]
  have e : idx_main_v63 (ix2 i j) = ix2 i (0 : Fin 1) :=
    funext fun a => by match a with | ⟨0, _⟩ => rfl | ⟨1, _⟩ => rfl
  rw [e, v62_at, v33_at]
  rfl

/-- The same deviation, as the program computes it a second time for the normalisation. -/
private theorem v71_at (i : Fin 32768) (j : Fin 1024) :
    val_main_v71 (F := Ideal) x1 x4 x5 (ix2 i j) = linM x1 x4 x5 i j - Spec.mean (linM x1 x4 x5) i := by
  rw [val_main_v71_apply, val_main_v70_apply]
  have e : idx_main_v70 (ix2 i j) = ix2 i (0 : Fin 1) :=
    funext fun a => by match a with | ⟨0, _⟩ => rfl | ⟨1, _⟩ => rfl
  rw [e, v62_at, v33_at]
  rfl

/-- The row sum of the squared deviations. -/
private theorem v66_at (i : Fin 32768) :
    val_main_v66 (F := Ideal) x1 x4 x5 (ix1 i)
      = ∑ t : Fin 1024, (linM x1 x4 x5 i t - Spec.mean (linM x1 x4 x5) i) * (linM x1 x4 x5 i t - Spec.mean (linM x1 x4 x5) i) := by
  rw [val_main_v66_apply, val_main_cst_10_apply]
  show Ideal.ofBits .f32 0x00000000#32 + _ = _
  rw [Ideal.ofBits_zero_f32, zero_add]
  refine Finset.sum_congr rfl fun k _ => ?_
  have e : idx_main_v66 (ix1 i) k = ix2 i k :=
    funext fun a => by match a with | ⟨0, _⟩ => rfl | ⟨1, _⟩ => rfl
  rw [e, val_main_v65_apply, v64_at]
  rfl

/-- That sum as a column, divided by the splat `1024`: the row's variance. -/
private theorem v69_at (i : Fin 32768) :
    val_main_v69 (F := Ideal) x1 x4 x5 (ix2 i (0 : Fin 1)) = Spec.var (linM x1 x4 x5) i := by
  rw [val_main_v69_apply, val_main_v67_apply, val_main_v68_apply, val_main_cst_11_apply]
  have e : idx_main_v67 (ix2 i (0 : Fin 1)) = ix1 i :=
    funext fun a => by match a with | ⟨0, _⟩ => rfl
  rw [e, v66_at]
  rfl

/-- The reciprocal square root of the variance plus the epsilon word. -/
private theorem v74_at (i : Fin 32768) :
    val_main_v74 (F := Ideal) x1 x4 x5 (ix2 i (0 : Fin 1)) = Ideal.rsqrt (Spec.var (linM x1 x4 x5) i + Spec.cEps) := by
  rw [val_main_v74_apply, val_main_v73_apply, val_main_v72_apply, val_main_cst_12_apply, v69_at]
  rfl

/-- The deviation times the reciprocal square root broadcast along the row. -/
private theorem v76_at (i : Fin 32768) (j : Fin 1024) :
    val_main_v76 (F := Ideal) x1 x4 x5 (ix2 i j)
      = (linM x1 x4 x5 i j - Spec.mean (linM x1 x4 x5) i) * Ideal.rsqrt (Spec.var (linM x1 x4 x5) i + Spec.cEps) := by
  rw [val_main_v76_apply, val_main_v75_apply, v71_at]
  have e : idx_main_v75 (ix2 i j) = ix2 i (0 : Fin 1) :=
    funext fun a => by match a with | ⟨0, _⟩ => rfl | ⟨1, _⟩ => rfl
  rw [e, v74_at]
  rfl

end Stages

theorem ref_edge (x1 : (⟨S32768x1024, .f32⟩ : BufTy).Contents (Elt Ideal)) (x4 : (⟨S1024x1024, .f32⟩ : BufTy).Contents (Elt Ideal))
    (x5 x13 x14 : (⟨S1024, .f32⟩ : BufTy).Contents (Elt Ideal)) (i : Fin 32768) (j : Fin 1024) :
    val_main_v83 (F := Ideal) x1 x4 x5 x13 x14 (ix2 i j)
      = Spec.edge (fun a t => x1 (ix2 a t)) (fun a t => x4 (ix2 a t)) (fun t => x5 (ix1 t)) (fun t => x13 (ix1 t))
          (fun t => x14 (ix1 t)) i j := by
  rw [val_main_v83_apply, val_main_v82_apply, val_main_v79_apply, v76_at,
    val_main_v78_apply, val_main_v77_apply, val_main_v81_apply, val_main_v80_apply]
  have eg : idx_main_v77 (idx_main_v78 (ix2 i j)) = ix1 j :=
    funext fun a => by match a with | ⟨0, _⟩ => rfl
  have eb : idx_main_v80 (idx_main_v81 (ix2 i j)) = ix1 j :=
    funext fun a => by match a with | ⟨0, _⟩ => rfl
  rw [eg, eb]
  rfl

end Cert.ReferenceIdeal.RefValue

end
-- ==== Proof.lean ====
/-
  The node and edge paths of a graph layer: the kernel and the reference compute the same extended reals.

  Node path: a linear layer, queries and one shared low-rank key/value matrix, eight heads of softmax attention against it,
  the output projection, a layer norm and the residual. Edge path: a linear layer, a layer norm and the residual, the kernel
  32 row blocks at a time. At the ideal values every format change is the identity and a product accumulated into zero is the
  product, so the two programs differ only in arrangement: the kernel slices a head's 128 query columns and 128 rows of the
  output weights and adds the eight heads' products one after the other onto zero, where the reference reshapes the queries
  to 8 × 128, moves the head axis to the front and contracts all 1024 coordinates against the output weights at once. A sum
  over 1024 indices is the sum over eight heads of the sum over each head's 128 indices, and eight terms added onto zero are
  their sum: laws of a commutative monoid, which hold at the infinities too, so the precondition is never opened. Both
  programs multiply the scores by the same single-precision word for 128^(-1/2) and add the same word for the layer norm's
  epsilon.

  Both results are stated as one function of the argument arrays (the specification's node and edge paths): the kernel's
  from the run of its two calls with the results named, each result array read off its call's blocks; the reference's from
  its run read one operation at a time. The three frames are the generated ones; the idealization rewrote nothing.
-/
import proofs.«121415_j74371653697775_1_alg».proof.Defs
import proofs.«121415_j74371653697775_1_alg».proof.Proof.Gen.Kernel
import proofs.«121415_j74371653697775_1_alg».proof.Proof.Gen.Kernel.Frame
import proofs.«121415_j74371653697775_1_alg».proof.Proof.Gen.KernelIdeal
import proofs.«121415_j74371653697775_1_alg».proof.Proof.Gen.KernelIdeal.Frame
import proofs.«121415_j74371653697775_1_alg».proof.Proof.Gen.ReferenceIdeal
import proofs.«121415_j74371653697775_1_alg».proof.Proof.Gen.ReferenceIdeal.Run
import proofs.«121415_j74371653697775_1_alg».proof.Proof.Gen.ReferenceIdeal.Read
import proofs.«121415_j74371653697775_1_alg».proof.Proof.Gen.Pre_finite_inputs
import proofs.«121415_j74371653697775_1_alg».proof.Proof.RunNamed
import proofs.«121415_j74371653697775_1_alg».proof.Proof.Arrays
import proofs.«121415_j74371653697775_1_alg».proof.Proof.RefNode
import proofs.«121415_j74371653697775_1_alg».proof.Proof.RefEdge
import Idealize.ShloMosaic.Adequacy
import Idealize.ShloMosaic.Init

noncomputable section

namespace Cert.Proof

open Idealize.ShloMosaic Idealize.SL.Sem Idealize.ShloMosaic.ValueIdx

/-- At the ideal values both programs end with the node result at the specification's node path of the arguments and the
    edge result at its edge path, from memories that agree on the arguments. -/
theorem algebraic : Cert.algebraic_KernelIdeal_ReferenceIdeal := by
  intro m ρ m' ρ' _ hagree
  refine ⟨fun c => Cert.KernelIdeal.Arrays.Gnode m c, fun c => Cert.KernelIdeal.Arrays.Gedge m c, ?_, ?_⟩
  · refine (θ_run Cert.KernelIdeal.defs _ _).mono (fun r h c => ?_) (Cert.KernelIdeal.Named.run_named (F := Ideal) m ρ)
    obtain ⟨h7, h8, hargs⟩ := h c
    exact ⟨h7.trans (Cert.KernelIdeal.Arrays.W3_v7_eq m ρ c), h8.trans (Cert.KernelIdeal.Arrays.W3_v8_eq m ρ c), hargs⟩
  · refine (θ_run Cert.ReferenceIdeal.defs _ _).mono (fun r h c => ?_) (Cert.ReferenceIdeal.Value.run (F := Ideal) m' ρ')
    obtain ⟨h58, h83, hargs⟩ := h c
    obtain ⟨a0, a1, a2, a3, a4, a5, a6, a7, a8, a9, a10, a11, a12, a13, a14⟩ := hagree c
    refine ⟨h58.trans ?_, h83.trans ?_, hargs⟩
    · rw [Cert.ReferenceIdeal.Read.val_main_v58_eq, a0, a2, a3, a6, a7, a8, a9, a10, a11, a12]
      funext idx
      refine (congrArg _ (eq_ix2 (n0 := 1024) (n1 := 1024) idx)).trans ?_
      exact Cert.ReferenceIdeal.RefValue.ref_node _ _ _ _ _ _ _ _ _ _ (idx 0) (idx 1)
    · refine (Cert.ReferenceIdeal.Read.val_main_v83_eq _ _ _ _ _).trans ?_
      rw [a1, a4, a5, a13, a14]
      funext idx
      refine (congrArg _ (eq_ix2 (n0 := 32768) (n1 := 1024) idx)).trans ?_
      exact Cert.ReferenceIdeal.RefValue.ref_edge _ _ _ _ _ (idx 0) (idx 1)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2) (Cert.ReferenceIdeal.Value.run (F := Ideal) m ρ),
  trivial,
  algebraic⟩

end Cert.Proof

end
